-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S8x64 : Shape := ⟨2, ![8, 64]⟩
abbrev S8x256 : Shape := ⟨2, ![8, 256]⟩
abbrev S1536x768 : Shape := ⟨2, ![1536, 768]⟩
abbrev S768 : Shape := ⟨1, ![768]⟩
abbrev S768x2 : Shape := ⟨2, ![768, 2]⟩
abbrev S2 : Shape := ⟨1, ![2]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S1536x768 : S_.BroadcastsInDim S1536x768 (![] : Fin 0 → Fin S1536x768.rank)
  reducesTo_S1536x768_S_d0_1 : S1536x768.ReducesTo [0, 1] S_
  bcast_S_S768 : S_.BroadcastsInDim S768 (![] : Fin 0 → Fin S768.rank)
  reducesTo_S768_S_d0 : S768.ReducesTo [0] S_
  bcast_S_S768x2 : S_.BroadcastsInDim S768x2 (![] : Fin 0 → Fin S768x2.rank)
  reducesTo_S768x2_S_d0_1 : S768x2.ReducesTo [0, 1] S_
  bcast_S_S2 : S_.BroadcastsInDim S2 (![] : Fin 0 → Fin S2.rank)
  reducesTo_S2_S_d0 : S2.ReducesTo [0] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg1 : IVec S8x64 32) (main_arg6 : FVec F S2 .f32) (main_v13 : IVec S_ 1) (main_v16 : IVec S768x2 1) : IVec S_ 1 :=
  let main_c_5 : IVec S_ 1 := constantI S_ 1 1#1
  let main_v17 : IVec S_ 1 := (fun x v => Host.reduce IntOp.andi x v reducesTo_S768x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 512#32
  let main_v24 : IVec S8x64 32 := broadcastInDim S8x64 ![] bcast_S_S8x64 main_c_8
  let main_v25 : IVec S8x64 1 := cmpi .slt main_arg1 main_v24
  let main_c_9 : IVec S_ 1 := constantI S_ 1 1#1
  let main_v26 : IVec S_ 1 := (fun x v => Host.reduce IntOp.andi x v reducesTo_S8x64_S_d0_1 h_S_) main_v25 main_c_9
  let main_v27 : IVec S_ 1 := andi main_v23 main_v26
  main_v27

def fn {F : FTy → Type} [FloatOps F] (main_arg0 : FVec F S8x512x768 .f32) (main_arg1 : IVec S8x64 32) (main_arg2 : IVec S8x256 32) (main_arg3 : FVec F S1536x768 .f32) (main_arg4 : FVec F S768 .f32) (main_arg5 : FVec F S768x2 .f32) (main_arg6 : FVec F S2 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S1536x768 .f32 := Host.absf main_arg3
  let main_cst_0 : FVec F S_ .f32 := constant S_ .f32 0x7F800000#32
  let main_v5 : FVec F S1536x768 .f32 := broadcastInDim S1536x768 ![] bcast_S_S1536x768 main_cst_0
  let main_v6 : IVec S1536x768 1 := cmpf .olt main_v4 main_v5
  let main_c_1 : IVec S_ 1 := constantI S_ 1 1#1
  let main_v7 : IVec S_ 1 := (fun x v => Host.reduce IntOp.andi x v reducesTo_S1536x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x2 .f32 := Host.absf main_arg5
  let main_cst_4 : FVec F S_ .f32 := constant S_ .f32 0x7F800000#32
  let main_v15 : FVec F S768x2 .f32 := broadcastInDim S768x2 ![] bcast_S_S768x2 main_cst_4
  let main_v16 : IVec S768x2 1 := cmpf .olt main_v14 main_v15
  fn_part1 (F := F) main_arg1 main_arg6 main_v13 main_v16
-- ==== Kernel.lean ====
abbrev S8x512x768 : Shape := ⟨3, ![8, 512, 768]⟩
abbrev S8x64 : Shape := ⟨2, ![8, 64]⟩
abbrev S8x256 : Shape := ⟨2, ![8, 256]⟩
abbrev S1536x768 : Shape := ⟨2, ![1536, 768]⟩
abbrev S768 : Shape := ⟨1, ![768]⟩
abbrev S768x2 : Shape := ⟨2, ![768, 2]⟩
abbrev S2 : Shape := ⟨1, ![2]⟩
abbrev S8x1x64 : Shape := ⟨3, ![8, 1, 64]⟩
abbrev S8x1x256 : Shape := ⟨3, ![8, 1, 256]⟩
abbrev S1x768 : Shape := ⟨2, ![1, 768]⟩
abbrev S1x2 : Shape := ⟨2, ![1, 2]⟩
abbrev S8x1x2 : Shape := ⟨3, ![8, 1, 2]⟩
abbrev S1x512x768 : Shape := ⟨3, ![1, 512, 768]⟩
abbrev S1x1x64 : Shape := ⟨3, ![1, 1, 64]⟩
abbrev S1x1x256 : Shape := ⟨3, ![1, 1, 256]⟩
abbrev S1x1x2 : Shape := ⟨3, ![1, 1, 2]⟩
abbrev S512x768 : Shape := ⟨2, ![512, 768]⟩
abbrev S1x64 : Shape := ⟨2, ![1, 64]⟩
abbrev S1x256 : Shape := ⟨2, ![1, 256]⟩
abbrev S1 : Shape := ⟨1, ![1]⟩
abbrev S1x1 : Shape := ⟨2, ![1, 1]⟩
abbrev S1x512 : Shape := ⟨2, ![1, 512]⟩
abbrev S64x1 : Shape := ⟨2, ![64, 1]⟩
abbrev S256x1 : Shape := ⟨2, ![256, 1]⟩
abbrev S64x512 : Shape := ⟨2, ![64, 512]⟩
abbrev S256x512 : Shape := ⟨2, ![256, 512]⟩
abbrev S64x768 : Shape := ⟨2, ![64, 768]⟩
abbrev S256x768 : Shape := ⟨2, ![256, 768]⟩
abbrev S64 : Shape := ⟨1, ![64]⟩
abbrev S256 : Shape := ⟨1, ![256]⟩
abbrev S768x256 : Shape := ⟨2, ![768, 256]⟩
abbrev S64x256 : Shape := ⟨2, ![64, 256]⟩
abbrev S1x1536 : Shape := ⟨2, ![1, 1536]⟩
abbrev S8x2 : Shape := ⟨2, ![8, 2]⟩

abbrev nBuf : Space → Nat
  | .hbm => 13
  | .vmem => 12
  | .smem => 0
  | _ => 0

abbrev bufTy : (tb : Table) → Fin (tcTables nBuf tb) → BufTy
  | .hbm, ⟨0, _⟩ => ⟨S8x512x768, .f32⟩
  | .hbm, ⟨1, _⟩ => ⟨S8x64, .i32⟩
  | .hbm, ⟨2, _⟩ => ⟨S8x256, .i32⟩
  | .hbm, ⟨3, _⟩ => ⟨S1536x768, .f32⟩
  | .hbm, ⟨4, _⟩ => ⟨S768, .f32⟩
  | .hbm, ⟨5, _⟩ => ⟨S768x2, .f32⟩
  | .hbm, ⟨6, _⟩ => ⟨S2, .f32⟩
  | .hbm, ⟨7, _⟩ => ⟨S8x1x64, .i32⟩
  | .hbm, ⟨8, _⟩ => ⟨S8x1x256, .i32⟩
  | .hbm, ⟨9, _⟩ => ⟨S1x768, .f32⟩
  | .hbm, ⟨10, _⟩ => ⟨S1x2, .f32⟩
  | .hbm, ⟨11, _⟩ => ⟨S8x1x2, .f32⟩
  | .hbm, ⟨12, _⟩ => ⟨S8x2, .f32⟩
  | .local _ .vmem, ⟨0, _⟩ => ⟨S1x512x768, .f32⟩
  | .local _ .vmem, ⟨1, _⟩ => ⟨S1x512x768, .f32⟩
  | .local _ .vmem, ⟨2, _⟩ => ⟨S1x1x64, .i32⟩
  | .local _ .vmem, ⟨3, _⟩ => ⟨S1x1x64, .i32⟩
  | .local _ .vmem, ⟨4, _⟩ => ⟨S1x1x256, .i32⟩
  | .local _ .vmem, ⟨5, _⟩ => ⟨S1x1x256, .i32⟩
  | .local _ .vmem, ⟨6, _⟩ => ⟨S1536x768, .f32⟩
  | .local _ .vmem, ⟨7, _⟩ => ⟨S1x768, .f32⟩
  | .local _ .vmem, ⟨8, _⟩ => ⟨S768x2, .f32⟩
  | .local _ .vmem, ⟨9, _⟩ => ⟨S1x2, .f32⟩
  | .local _ .vmem, ⟨10, _⟩ => ⟨S1x1x2, .f32⟩
  | .local _ .vmem, ⟨11, _⟩ => ⟨S1x1x2, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x64_S8x1x64 : S8x64.ShapeCasts S8x1x64
  shapeCasts_S8x256_S8x1x256 : S8x256.ShapeCasts S8x1x256
  shapeCasts_S768_S1x768 : S768.ShapeCasts S1x768
  shapeCasts_S2_S1x2 : S2.ShapeCasts S1x2
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  natLt_1_32 : 1 < 32
  reduces_S1x64_S1 : S1x64.Reduces [1] S1
  shapeCasts_S1_S1x1 : S1.ShapeCasts S1x1
  reduces_S1x256_S1 : S1x256.Reduces [1] S1
  iota_S1x512_d1_w32 : S1x512.Iotas .tc 32 [1]
  shapeCasts_S1x64_S64x1 : S1x64.ShapeCasts S64x1
  shapeCasts_S1x256_S256x1 : S1x256.ShapeCasts S256x1
  broadcasts_S64x1_S64x512 : S64x1.Broadcasts S64x512
  broadcasts_S1x512_S64x512 : S1x512.Broadcasts S64x512
  broadcasts_S256x1_S256x512 : S256x1.Broadcasts S256x512
  broadcasts_S1x512_S256x512 : S1x512.Broadcasts S256x512
  reduces_S64x768_S64 : S64x768.Reduces [1] S64
  shapeCasts_S64_S64x1 : S64.ShapeCasts S64x1
  reduces_S256x768_S256 : S256x768.Reduces [1] S256
  shapeCasts_S256_S256x1 : S256.ShapeCasts S256x1
  broadcasts_S64x1_S64x768 : S64x1.Broadcasts S64x768
  broadcasts_S256x1_S256x768 : S256x1.Broadcasts S256x768
  transposes_S256x768_p1_0_S768x256 : S256x768.Transposes [1, 0] S768x256
  broadcasts_S1x256_S64x256 : S1x256.Broadcasts S64x256
  broadcasts_S1x1_S64x768 : S1x1.Broadcasts S64x768
  reduces_S64x768_S768 : S64x768.Reduces [0] S768
  broadcasts_S1x1_S1x768 : S1x1.Broadcasts S1x768
  concatenates_S1x768_S1x768_S1x1536_d1 : Shape.Concatenates [S1x768, S1x768] S1x1536 1
  inb_S1536x768_S1536x768_0_0 : ∀ a, (![0, 0] : Fin 2 → Nat) a + S1536x768.size a ≤ S1536x768.size a
  h_S1536x768 : 0 < S1536x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x2_S768x2_0_0 : ∀ a, (![0, 0] : Fin 2 → Nat) a + S768x2.size a ≤ S768x2.size a
  h_S768x2 : 0 < S768x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  shapeCasts_S8x1x2_S8x2 : S8x1x2.ShapeCasts S8x2
  dot_S64x512_S512x768_S64x768_1_0_0_1_n_n_wf : DotDims.WF S64x512 S512x768 S64x768 [1] [0] [0] [1] [] []
  dot_S256x512_S512x768_S256x768_1_0_0_1_n_n_wf : DotDims.WF S256x512 S512x768 S256x768 [1] [0] [0] [1] [] []
  dot_S64x768_S768x256_S64x256_1_0_0_1_n_n_wf : DotDims.WF S64x768 S768x256 S64x256 [1] [0] [0] [1] [] []
  dot_S64x256_S256x768_S64x768_1_0_0_1_n_n_wf : DotDims.WF S64x256 S256x768 S64x768 [1] [0] [0] [1] [] []
  dot_S1x1536_S1536x768_S1x768_1_0_0_1_n_n_wf : DotDims.WF S1x1536 S1536x768 S1x768 [1] [0] [0] [1] [] []
  dot_S1x768_S768x2_S1x2_1_0_0_1_n_n_wf : DotDims.WF S1x768 S768x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x512x768.size a
  hwx0_0 : ∀ i : grid0.Coords, EltTy.bits .f32 = 32 ∨ (Rect.block (s := S8x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S8x1x64.size a
  hwx0_1 : ∀ i : grid0.Coords, EltTy.bits .i32 = 32 ∨ (Rect.block (s := S8x1x64) S1x1x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .i32 = 32 ∨ (Rect.block (s := S8x1x256) S1x1x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x768.size a ≤ S1536x768.size a
  hwx0_3 : ∀ i : grid0.Coords, EltTy.bits .f32 = 32 ∨ (Rect.block (s := S1536x768) S1536x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x2.size a ≤ S768x2.size a
  hwx0_5 : ∀ i : grid0.Coords, EltTy.bits .f32 = 32 ∨ (Rect.block (s := S768x2) S768x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2.size a ≤ S8x1x2.size a
  hwx0_7 : ∀ i : grid0.Coords, EltTy.bits .f32 = 32 ∨ (Rect.block (s := S8x1x2) S1x1x2.size (cc0_transform_7 i) (hinb0_7 i)).WholeWords (EltTy.packing .f32)

variable [Facts₀]

def dot_S64x512_S512x768_S64x768_1_0_0_1_n_n : DotDims S64x512 S512x768 S64x768 where
  lhsContracting := [1]
  rhsContracting := [0]
  lhsNonContracting := [0]
  rhsNonContracting := [1]
  lhsBatch := []
  rhsBatch := []
  wf := dot_S64x512_S512x768_S64x768_1_0_0_1_n_n_wf
def dot_S256x512_S512x768_S256x768_1_0_0_1_n_n : DotDims S256x512 S512x768 S256x768 where
  lhsContracting := [1]
  rhsContracting := [0]
  lhsNonContracting := [0]
  rhsNonContracting := [1]
  lhsBatch := []
  rhsBatch := []
  wf := dot_S256x512_S512x768_S256x768_1_0_0_1_n_n_wf
def dot_S64x768_S768x256_S64x256_1_0_0_1_n_n : DotDims S64x768 S768x256 S64x256 where
  lhsContracting := [1]
  rhsContracting := [0]
  lhsNonContracting := [0]
  rhsNonContracting := [1]
  lhsBatch := []
  rhsBatch := []
  wf := dot_S64x768_S768x256_S64x256_1_0_0_1_n_n_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S1x1536_S1536x768_S1x768_1_0_0_1_n_n : DotDims S1x1536 S1536x768 S1x768 where
  lhsContracting := [1]
  rhsContracting := [0]
  lhsNonContracting := [0]
  rhsNonContracting := [1]
  lhsBatch := []
  rhsBatch := []
  wf := dot_S1x1536_S1536x768_S1x768_1_0_0_1_n_n_wf
def dot_S1x768_S768x2_S1x2_1_0_0_1_n_n : DotDims S1x768 S768x2 S1x2 where
  lhsContracting := [1]
  rhsContracting := [0]
  lhsNonContracting := [0]
  rhsNonContracting := [1]
  lhsBatch := []
  rhsBatch := []
  wf := dot_S1x768_S768x2_S1x2_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1536x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S8x64 : Shape := ⟨2, ![8, 64]⟩
abbrev S8x256 : Shape := ⟨2, ![8, 256]⟩
abbrev S1536x768 : Shape := ⟨2, ![1536, 768]⟩
abbrev S768 : Shape := ⟨1, ![768]⟩
abbrev S768x2 : Shape := ⟨2, ![768, 2]⟩
abbrev S2 : Shape := ⟨1, ![2]⟩
abbrev S_ : Shape := ⟨0, ![]⟩
abbrev S8 : Shape := ⟨1, ![8]⟩
abbrev S8x64x1 : Shape := ⟨3, ![8, 64, 1]⟩
abbrev S1 : Shape := ⟨1, ![1]⟩
abbrev S1x1x1 : Shape := ⟨3, ![1, 1, 1]⟩
abbrev S8x64x768 : Shape := ⟨3, ![8, 64, 768]⟩
abbrev S8x256x1 : Shape := ⟨3, ![8, 256, 1]⟩
abbrev S8x256x768 : Shape := ⟨3, ![8, 256, 768]⟩
abbrev S8x64x256 : Shape := ⟨3, ![8, 64, 256]⟩
abbrev S8x1x256 : Shape := ⟨3, ![8, 1, 256]⟩
abbrev S8x1x1 : Shape := ⟨3, ![8, 1, 1]⟩
abbrev S8x768 : Shape := ⟨2, ![8, 768]⟩
abbrev S8x1 : Shape := ⟨2, ![8, 1]⟩
abbrev S8x1536 : Shape := ⟨2, ![8, 1536]⟩
abbrev S1x768 : Shape := ⟨2, ![1, 768]⟩
abbrev S8x2 : Shape := ⟨2, ![8, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S8x64, .i32⟩
  | .hbm, ⟨2, _⟩ => ⟨S8x256, .i32⟩
  | .hbm, ⟨3, _⟩ => ⟨S1536x768, .f32⟩
  | .hbm, ⟨4, _⟩ => ⟨S768, .f32⟩
  | .hbm, ⟨5, _⟩ => ⟨S768x2, .f32⟩
  | .hbm, ⟨6, _⟩ => ⟨S2, .f32⟩
  | .hbm, ⟨7, _⟩ => ⟨S_, .i32⟩
  | .hbm, ⟨8, _⟩ => ⟨S8x64, .i32⟩
  | .hbm, ⟨9, _⟩ => ⟨S8x64, .i1⟩
  | .hbm, ⟨10, _⟩ => ⟨S8x64, .f32⟩
  | .hbm, ⟨11, _⟩ => ⟨S_, .i32⟩
  | .hbm, ⟨12, _⟩ => ⟨S8x256, .i32⟩
  | .hbm, ⟨13, _⟩ => ⟨S8x256, .i1⟩
  | .hbm, ⟨14, _⟩ => ⟨S8x256, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8x64x1, .i32⟩
  | .hbm, ⟨20, _⟩ => ⟨S_, .i32⟩
  | .hbm, ⟨21, _⟩ => ⟨S8x64x1, .i32⟩
  | .hbm, ⟨22, _⟩ => ⟨S8x64x1, .i1⟩
  | .hbm, ⟨23, _⟩ => ⟨S_, .i32⟩
  | .hbm, ⟨24, _⟩ => ⟨S8x64x1, .i32⟩
  | .hbm, ⟨25, _⟩ => ⟨S8x64x1, .i32⟩
  | .hbm, ⟨26, _⟩ => ⟨S8x64x1, .i32⟩
  | .hbm, ⟨27, _⟩ => ⟨S1, .i32⟩
  | .hbm, ⟨28, _⟩ => ⟨S_, .i32⟩
  | .hbm, ⟨29, _⟩ => ⟨S8x64x1, .i32⟩
  | .hbm, ⟨30, _⟩ => ⟨S8x64x1, .i1⟩
  | .hbm, ⟨31, _⟩ => ⟨S1x1x1, .i32⟩
  | .hbm, ⟨32, _⟩ => ⟨S8x64x1, .i32⟩
  | .hbm, ⟨33, _⟩ => ⟨S8x64x1, .i1⟩
  | .hbm, ⟨34, _⟩ => ⟨S8x64x1, .i1⟩
  | .hbm, ⟨35, _⟩ => ⟨S_, .i1⟩
  | .hbm, ⟨36, _⟩ => ⟨S8x64, .i1⟩
  | .hbm, ⟨37, _⟩ => ⟨S8x64x768, .f32⟩
  | .hbm, ⟨38, _⟩ => ⟨S8x64x768, .i1⟩
  | .hbm, ⟨39, _⟩ => ⟨S_, .f32⟩
  | .hbm, ⟨40, _⟩ => ⟨S8x64x768, .f32⟩
  | .hbm, ⟨41, _⟩ => ⟨S8x64x768, .f32⟩
  | .hbm, ⟨42, _⟩ => ⟨S8x256x1, .i32⟩
  | .hbm, ⟨43, _⟩ => ⟨S_, .i32⟩
  | .hbm, ⟨44, _⟩ => ⟨S8x256x1, .i32⟩
  | .hbm, ⟨45, _⟩ => ⟨S8x256x1, .i1⟩
  | .hbm, ⟨46, _⟩ => ⟨S_, .i32⟩
  | .hbm, ⟨47, _⟩ => ⟨S8x256x1, .i32⟩
  | .hbm, ⟨48, _⟩ => ⟨S8x256x1, .i32⟩
  | .hbm, ⟨49, _⟩ => ⟨S8x256x1, .i32⟩
  | .hbm, ⟨50, _⟩ => ⟨S1, .i32⟩
  | .hbm, ⟨51, _⟩ => ⟨S_, .i32⟩
  | .hbm, ⟨52, _⟩ => ⟨S8x256x1, .i32⟩
  | .hbm, ⟨53, _⟩ => ⟨S8x256x1, .i1⟩
  | .hbm, ⟨54, _⟩ => ⟨S1x1x1, .i32⟩
  | .hbm, ⟨55, _⟩ => ⟨S8x256x1, .i32⟩
  | .hbm, ⟨56, _⟩ => ⟨S8x256x1, .i1⟩
  | .hbm, ⟨57, _⟩ => ⟨S8x256x1, .i1⟩
  | .hbm, ⟨58, _⟩ => ⟨S_, .i1⟩
  | .hbm, ⟨59, _⟩ => ⟨S8x256, .i1⟩
  | .hbm, ⟨60, _⟩ => ⟨S8x256x768, .f32⟩
  | .hbm, ⟨61, _⟩ => ⟨S8x256x768, .i1⟩
  | .hbm, ⟨62, _⟩ => ⟨S_, .f32⟩
  | .hbm, ⟨63, _⟩ => ⟨S8x256x768, .f32⟩
  | .hbm, ⟨64, _⟩ => ⟨S8x256x768, .f32⟩
  | .hbm, ⟨65, _⟩ => ⟨S8x64x768, .f32⟩
  | .hbm, ⟨66, _⟩ => ⟨S_, .f32⟩
  | .hbm, ⟨67, _⟩ => ⟨S8x64, .f32⟩
  | .hbm, ⟨68, _⟩ => ⟨S8x64x1, .f32⟩
  | .hbm, ⟨69, _⟩ => ⟨S8x64x1, .f32⟩
  | .hbm, ⟨70, _⟩ => ⟨S_, .f32⟩
  | .hbm, ⟨71, _⟩ => ⟨S8x64x1, .f32⟩
  | .hbm, ⟨72, _⟩ => ⟨S8x64x1, .f32⟩
  | .hbm, ⟨73, _⟩ => ⟨S8x64x768, .f32⟩
  | .hbm, ⟨74, _⟩ => ⟨S8x64x768, .f32⟩
  | .hbm, ⟨75, _⟩ => ⟨S8x256x768, .f32⟩
  | .hbm, ⟨76, _⟩ => ⟨S_, .f32⟩
  | .hbm, ⟨77, _⟩ => ⟨S8x256, .f32⟩
  | .hbm, ⟨78, _⟩ => ⟨S8x256x1, .f32⟩
  | .hbm, ⟨79, _⟩ => ⟨S8x256x1, .f32⟩
  | .hbm, ⟨80, _⟩ => ⟨S_, .f32⟩
  | .hbm, ⟨81, _⟩ => ⟨S8x256x1, .f32⟩
  | .hbm, ⟨82, _⟩ => ⟨S8x256x1, .f32⟩
  | .hbm, ⟨83, _⟩ => ⟨S8x256x768, .f32⟩
  | .hbm, ⟨84, _⟩ => ⟨S8x256x768, .f32⟩
  | .hbm, ⟨85, _⟩ => ⟨S8x64x256, .f32⟩
  | .hbm, ⟨86, _⟩ => ⟨S8x1x256, .f32⟩
  | .hbm, ⟨87, _⟩ => ⟨S8x64x256, .f32⟩
  | .hbm, ⟨88, _⟩ => ⟨S8x64x256, .f32⟩
  | .hbm, ⟨89, _⟩ => ⟨S8x64x768, .f32⟩
  | .hbm, ⟨90, _⟩ => ⟨S8x1x1, .f32⟩
  | .hbm, ⟨91, _⟩ => ⟨S8x64x768, .f32⟩
  | .hbm, ⟨92, _⟩ => ⟨S8x64x768, .f32⟩
  | .hbm, ⟨93, _⟩ => ⟨S8x64x1, .f32⟩
  | .hbm, ⟨94, _⟩ => ⟨S8x64x768, .f32⟩
  | .hbm, ⟨95, _⟩ => ⟨S8x64x768, .f32⟩
  | .hbm, ⟨96, _⟩ => ⟨S_, .f32⟩
  | .hbm, ⟨97, _⟩ => ⟨S8x768, .f32⟩
  | .hbm, ⟨98, _⟩ => ⟨S8x1, .f32⟩
  | .hbm, ⟨99, _⟩ => ⟨S8x768, .f32⟩
  | .hbm, ⟨100, _⟩ => ⟨S8x768, .f32⟩
  | .hbm, ⟨101, _⟩ => ⟨S8x64x768, .f32⟩
  | .hbm, ⟨102, _⟩ => ⟨S8x64x768, .f32⟩
  | .hbm, ⟨103, _⟩ => ⟨S_, .f32⟩
  | .hbm, ⟨104, _⟩ => ⟨S8x768, .f32⟩
  | .hbm, ⟨105, _⟩ => ⟨S8x1, .f32⟩
  | .hbm, ⟨106, _⟩ => ⟨S8x768, .f32⟩
  | .hbm, ⟨107, _⟩ => ⟨S8x768, .f32⟩
  | .hbm, ⟨108, _⟩ => ⟨S8x1536, .f32⟩
  | .hbm, ⟨109, _⟩ => ⟨S8x768, .f32⟩
  | .hbm, ⟨110, _⟩ => ⟨S1x768, .f32⟩
  | .hbm, ⟨111, _⟩ => ⟨S8x768, .f32⟩
  | .hbm, ⟨112, _⟩ => ⟨S8x768, .f32⟩
  | .hbm, ⟨113, _⟩ => ⟨S_, .f32⟩
  | .hbm, ⟨114, _⟩ => ⟨S8x768, .f32⟩
  | .hbm, ⟨115, _⟩ => ⟨S8x768, .f32⟩
  | .hbm, ⟨116, _⟩ => ⟨S8x2, .f32⟩
  | .hbm, ⟨117, _⟩ => ⟨S1x2, .f32⟩
  | .hbm, ⟨118, _⟩ => ⟨S8x2, .f32⟩
  | .hbm, ⟨119, _⟩ => ⟨S8x2, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_c_2 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_c_3 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v9 : Ref sig .tc := ⟨.hbm, 41, rfl⟩
abbrev main_v10 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_c_2 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_c_3 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v11 : Ref sig .tc := ⟨.hbm, 64, rfl⟩
abbrev main_call2_v0 : Ref sig .tc := ⟨.hbm, 65, rfl⟩
abbrev main_call2_cst : Ref sig .tc := ⟨.hbm, 66, rfl⟩
abbrev main_call2_v1 : Ref sig .tc := ⟨.hbm, 67, rfl⟩
abbrev main_call2_v2 : Ref sig .tc := ⟨.hbm, 68, rfl⟩
abbrev main_v12 : Ref sig .tc := ⟨.hbm, 69, rfl⟩
abbrev main_cst_2 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_call3_v2 : Ref sig .tc := ⟨.hbm, 78, rfl⟩
abbrev main_v17 : Ref sig .tc := ⟨.hbm, 79, rfl⟩
abbrev main_cst_3 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_4 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_cst_5 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_call4_cst : Ref sig .tc := ⟨.hbm, 113, rfl⟩
abbrev main_call4_v0 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩

abbrev nD : Nat := 1
abbrev τ : Topo := Topo.v7x

variable {F : FTy → Type} [FloatOps F]

class Facts₀ : Prop where
  bcast_S_S8x64 : S_.BroadcastsInDim S8x64 (![] : Fin 0 → Fin S8x64.rank)
  bcast_S_S8x256 : S_.BroadcastsInDim S8x256 (![] : Fin 0 → Fin S8x256.rank)
  reducesTo_S8x64_S8_d1 : S8x64.ReducesTo [1] S8
  h_S_ : 0 < S_.numel
  reducesTo_S8x256_S8_d1 : S8x256.ReducesTo [1] S8
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S1_S1x1x1_2 : S1.BroadcastsInDim S1x1x1 (![2] : Fin 1 → Fin S1x1x1.rank)
  bcast_S1x1x1_S8x64x1_0_1_2 : S1x1x1.BroadcastsInDim S8x64x1 (![0, 1, 2] : Fin 3 → Fin S8x64x1.rank)
  reducesTo_S8x64x1_S8x64_d2 : S8x64x1.ReducesTo [2] S8x64
  bcast_S8x64_S8x64x768_0_1 : S8x64.BroadcastsInDim S8x64x768 (![0, 1] : Fin 2 → Fin S8x64x768.rank)
  bcast_S_S8x64x768 : S_.BroadcastsInDim S8x64x768 (![] : Fin 0 → Fin S8x64x768.rank)
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S1x1x1_S8x256x1_0_1_2 : S1x1x1.BroadcastsInDim S8x256x1 (![0, 1, 2] : Fin 3 → Fin S8x256x1.rank)
  reducesTo_S8x256x1_S8x256_d2 : S8x256x1.ReducesTo [2] S8x256
  bcast_S8x256_S8x256x768_0_1 : S8x256.BroadcastsInDim S8x256x768 (![0, 1] : Fin 2 → Fin S8x256x768.rank)
  bcast_S_S8x256x768 : S_.BroadcastsInDim S8x256x768 (![] : Fin 0 → Fin S8x256x768.rank)
  reducesTo_S8x64x768_S8x64_d2 : S8x64x768.ReducesTo [2] S8x64
  bcast_S8x64x1_S8x64x768_0_1_2 : S8x64x1.BroadcastsInDim S8x64x768 (![0, 1, 2] : Fin 3 → Fin S8x64x768.rank)
  reducesTo_S8x256x768_S8x256_d2 : S8x256x768.ReducesTo [2] S8x256
  bcast_S8x256x1_S8x256x768_0_1_2 : S8x256x1.BroadcastsInDim S8x256x768 (![0, 1, 2] : Fin 3 → Fin S8x256x768.rank)
  bcast_S8x256_S8x1x256_0_2 : S8x256.BroadcastsInDim S8x1x256 (![0, 2] : Fin 2 → Fin S8x1x256.rank)
  bcast_S8x1x256_S8x64x256_0_1_2 : S8x1x256.BroadcastsInDim S8x64x256 (![0, 1, 2] : Fin 3 → Fin S8x64x256.rank)
  bcast_S8_S8x1x1_0 : S8.BroadcastsInDim S8x1x1 (![0] : Fin 1 → Fin S8x1x1.rank)
  bcast_S8x1x1_S8x64x768_0_1_2 : S8x1x1.BroadcastsInDim S8x64x768 (![0, 1, 2] : Fin 3 → Fin S8x64x768.rank)
  reducesTo_S8x64x768_S8x768_d1 : S8x64x768.ReducesTo [1] S8x768
  bcast_S8_S8x1_0 : S8.BroadcastsInDim S8x1 (![0] : Fin 1 → Fin S8x1.rank)
  bcast_S8x1_S8x768_0_1 : S8x1.BroadcastsInDim S8x768 (![0, 1] : Fin 2 → Fin S8x768.rank)
  concatenates_S8x768_S8x768_S8x1536_d1 : Shape.Concatenates [S8x768, S8x768] S8x1536 1
  bcast_S768_S1x768_1 : S768.BroadcastsInDim S1x768 (![1] : Fin 1 → Fin S1x768.rank)
  bcast_S1x768_S8x768_0_1 : S1x768.BroadcastsInDim S8x768 (![0, 1] : Fin 2 → Fin S8x768.rank)
  bcast_S_S8x768 : S_.BroadcastsInDim S8x768 (![] : Fin 0 → Fin S8x768.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  gather_S8x512x768_S8x64x1_S8x64x768_2_1_0_0_1_2_11768_wf : GatherDims.WF S8x512x768 S8x64x1 S8x64x768 [2] [1] [0] [1] [0] 2 ![1, 1, 768]
  gather_S8x512x768_S8x256x1_S8x256x768_2_1_0_0_1_2_11768_wf : GatherDims.WF S8x512x768 S8x256x1 S8x256x768 [2] [1] [0] [1] [0] 2 ![1, 1, 768]
  dot_S8x64x768_S8x256x768_S8x64x256_2_2_1_1_0_0_wf : DotDims.WF S8x64x768 S8x256x768 S8x64x256 [2] [2] [1] [1] [0] [0]
  dot_S8x64x256_S8x256x768_S8x64x768_2_1_1_2_0_0_wf : DotDims.WF S8x64x256 S8x256x768 S8x64x768 [2] [1] [1] [2] [0] [0]
  dot_S8x1536_S1536x768_S8x768_1_0_0_1_n_n_wf : DotDims.WF S8x1536 S1536x768 S8x768 [1] [0] [0] [1] [] []
  dot_S8x768_S768x2_S8x2_1_0_0_1_n_n_wf : DotDims.WF S8x768 S768x2 S8x2 [1] [0] [0] [1] [] []

variable [Facts₀]

def gather_S8x512x768_S8x64x1_S8x64x768_2_1_0_0_1_2_11768 : GatherDims S8x512x768 S8x64x1 S8x64x768 where
  offsetDims := [2]
  collapsedSliceDims := [1]
  operandBatchingDims := [0]
  startIndicesBatchingDims := [0]
  startIndexMap := [1]
  indexVectorDim := 2
  sliceSizes := ![1, 1, 768]
  wf := gather_S8x512x768_S8x64x1_S8x64x768_2_1_0_0_1_2_11768_wf
def gather_S8x512x768_S8x256x1_S8x256x768_2_1_0_0_1_2_11768 : GatherDims S8x512x768 S8x256x1 S8x256x768 where
  offsetDims := [2]
  collapsedSliceDims := [1]
  operandBatchingDims := [0]
  startIndicesBatchingDims := [0]
  startIndexMap := [1]
  indexVectorDim := 2
  sliceSizes := ![1, 1, 768]
  wf := gather_S8x512x768_S8x256x1_S8x256x768_2_1_0_0_1_2_11768_wf
def dot_S8x64x768_S8x256x768_S8x64x256_2_2_1_1_0_0 : DotDims S8x64x768 S8x256x768 S8x64x256 where
  lhsContracting := [2]
  rhsContracting := [2]
  lhsNonContracting := [1]
  rhsNonContracting := [1]
  lhsBatch := [0]
  rhsBatch := [0]
  wf := dot_S8x64x768_S8x256x768_S8x64x256_2_2_1_1_0_0_wf
def dot_S8x64x256_S8x256x768_S8x64x768_2_1_1_2_0_0 : DotDims S8x64x256 S8x256x768 S8x64x768 where
  lhsContracting := [2]
  rhsContracting := [1]
  lhsNonContracting := [1]
  rhsNonContracting := [2]
  lhsBatch := [0]
  rhsBatch := [0]
  wf := dot_S8x64x256_S8x256x768_S8x64x768_2_1_1_2_0_0_wf
def dot_S8x1536_S1536x768_S8x768_1_0_0_1_n_n : DotDims S8x1536 S1536x768 S8x768 where
  lhsContracting := [1]
  rhsContracting := [0]
  lhsNonContracting := [0]
  rhsNonContracting := [1]
  lhsBatch := []
  rhsBatch := []
  wf := dot_S8x1536_S1536x768_S8x768_1_0_0_1_n_n_wf
def dot_S8x768_S768x2_S8x2_1_0_0_1_n_n : DotDims S8x768 S768x2 S8x2 where
  lhsContracting := [1]
  rhsContracting := [0]
  lhsNonContracting := [0]
  rhsNonContracting := [1]
  lhsBatch := []
  rhsBatch := []
  wf := dot_S8x768_S768x2_S8x2_1_0_0_1_n_n_wf

class Facts : Prop extends Facts₀ where

variable [Facts]
-- ==== Proof.PoolSpec.lean ====
/-
  The pooling head as mathematics, one batch at a time, on the extended reals.

  For one batch: token rows `ra q` (query side, 64 of them) and `rb d` (document side, 256) of width 768, with
  0/1 masks `ma`, `mb`. Each row is scaled to unit length with the norm clamped below by `eps`; `sim q d` is the
  inner product of the scaled rows; the document rows are averaged per query token with weights `sim q d * mb d`
  over the number of unmasked document tokens; that and the query rows themselves are averaged over the unmasked
  query tokens; the two averages are laid side by side and go through a two-layer perceptron with a ramp between.

  A masked row never matters: on the extended reals `x * 0 = 0` for EVERY `x`, infinite or not, so a row whose
  mask is 0 may be replaced by any other row (`congr`). An unmasked document row may even be traded between the row
  of all `⊥` and the row of all `0`: both scale to the zero row (`⊥ / ⊤ = 0`, `0 / eps = 0`), so their similarity
  to anything is `0`, and `0 * ⊥ = 0 * 0`.
-/
import Idealize.ShloMosaic.PureOps.Ideal
import Mathlib.Algebra.BigOperators.Group.Finset.Basic

noncomputable section

open scoped BigOperators

namespace Cert.PoolSpec

open Idealize.ShloMosaic

/-- The lower clamp of a row's norm: the single-precision number nearest `1e-8`. -/
def eps : EReal := Ideal.ofBits .f32 0x322BCC77#32

section rows
variable {Q D H : Type} [Fintype Q] [Fintype D] [Fintype H]

/-- A row's Euclidean norm, clamped below by `eps`. -/
def nrm (r : H → EReal) : EReal := max (Ideal.sqrt (∑ h, r h * r h)) eps
/-- A row scaled by its clamped norm. -/
def unit (r : H → EReal) (h : H) : EReal := Ideal.div (r h) (nrm r)
/-- Cosine similarity of query row `q` and document row `d`. -/
def sim (ra : Q → H → EReal) (rb : D → H → EReal) (q : Q) (d : D) : EReal := ∑ h, unit (ra q) h * unit (rb d) h
/-- The number of unmasked tokens. -/
def len (m : Q → EReal) : EReal := ∑ q, m q
/-- Per query token: the similarity-weighted average of the unmasked document rows. -/
def pqd (ra : Q → H → EReal) (rb : D → H → EReal) (mb : D → EReal) (q : Q) (h : H) : EReal :=
  Ideal.div (∑ d, (sim ra rb q d * mb d) * rb d h) (len mb)
/-- The average of `pqd` over the unmasked query tokens. -/
def qbd (ra : Q → H → EReal) (ma : Q → EReal) (rb : D → H → EReal) (mb : D → EReal) (h : H) : EReal :=
  Ideal.div (∑ q, pqd ra rb mb q h * ma q) (len ma)
/-- The average of the unmasked query rows. -/
def qavg (ra : Q → H → EReal) (ma : Q → EReal) (h : H) : EReal := Ideal.div (∑ q, ra q h * ma q) (len ma)

/-- The clamp is a positive real: `11258999 · 2⁻⁵⁰`. -/
theorem eps_pos : (0 : EReal) < eps := by
  have h : eps = (((11258999 : ℝ) * (2 : ℝ) ^ (-50 : Int) : ℝ) : EReal) := by
    simp [eps, Ideal.ofBits, Ideal.ieee, -EReal.coe_mul]
  rw [h, EReal.coe_pos]
  positivity

/-- The clamped norm is never zero. -/
theorem nrm_ne_zero (r : H → EReal) : nrm r ≠ 0 :=
  (lt_of_lt_of_le eps_pos (le_max_right _ _)).ne'

/-- A nonempty sum of `⊤` is `⊤`. -/
theorem sum_top {ι : Type} {s : Finset ι} (hs : s.Nonempty) : (∑ _i ∈ s, (⊤ : EReal)) = ⊤ := by
  induction hs using Finset.Nonempty.cons_induction with
  | singleton a => simp
  | cons a s ha hs ih => rw [Finset.sum_cons, ih, EReal.top_add_top]

/-- The row of all `⊥` scales to the zero row: its norm is `⊤`, and `⊥ / ⊤ = ⊥ * 0 = 0`. -/
theorem unit_bot [Nonempty H] : unit (fun _ : H => (⊥ : EReal)) = fun _ => 0 := by
  funext h
  have hs : (∑ _h : H, (⊥ : EReal) * ⊥) = ⊤ := by
    rw [EReal.bot_mul_bot]; exact sum_top Finset.univ_nonempty
  show Ideal.div ⊥ (max (Ideal.sqrt (∑ _h : H, (⊥ : EReal) * ⊥)) eps) = 0
  rw [hs, Ideal.sqrt_top, max_eq_left le_top, Ideal.div, if_neg EReal.top_ne_zero, EReal.inv_top, mul_zero]

/-- The zero row scales to the zero row: `0 / nrm = 0 * nrm⁻¹ = 0`, the norm being nonzero. -/
theorem unit_zero : unit (fun _ : H => (0 : EReal)) = fun _ => 0 := by
  funext h
  show Ideal.div 0 (nrm fun _ : H => (0 : EReal)) = 0
  rw [Ideal.div, if_neg (nrm_ne_zero _), zero_mul]

/-- A document row that scales to the zero row has similarity `0` to everything. -/
theorem sim_of_unit_zero (ra : Q → H → EReal) (rb : D → H → EReal) (q : Q) (d : D)
    (h0 : unit (rb d) = fun _ => 0) : sim ra rb q d = 0 := by
  unfold sim
  rw [h0]
  simp

/-- The similarity reads only the two rows it is taken at. -/
theorem sim_congr {ra ra' : Q → H → EReal} {rb rb' : D → H → EReal} {q : Q} {d : D}
    (ha : ra q = ra' q) (hb : rb d = rb' d) : sim ra rb q d = sim ra' rb' q d := by
  unfold sim
  rw [ha, hb]

/-- Masked rows do not matter, and an unmasked document row of all `⊥` counts as the zero row. -/
theorem congr [Nonempty H] {ra ra' : Q → H → EReal} {rb rb' : D → H → EReal} {ma : Q → EReal} {mb : D → EReal}
    (hma : ∀ q, ma q = 0 ∨ (ma q = 1 ∧ ra q = ra' q))
    (hmb : ∀ d, mb d = 0 ∨ (mb d = 1 ∧ (rb d = rb' d ∨ (rb d = (fun _ => ⊥) ∧ rb' d = fun _ => 0)))) :
    qavg ra ma = qavg ra' ma ∧ qbd ra ma rb mb = qbd ra' ma rb' mb := by
  -- the document-side average agrees wherever the query rows agree
  have hpqd : ∀ q, ra q = ra' q → ∀ h, pqd ra rb mb q h = pqd ra' rb' mb q h := by
    intro q hq h
    unfold pqd
    congr 1
    refine Finset.sum_congr rfl fun d _ => ?_
    rcases hmb d with h0 | ⟨_, hd | ⟨hb, hb'⟩⟩
    · rw [h0, mul_zero, zero_mul, mul_zero, zero_mul]
    · rw [sim_congr hq hd, hd]
    · rw [sim_of_unit_zero ra rb q d (by rw [hb]; exact unit_bot),
        sim_of_unit_zero ra' rb' q d (by rw [hb']; exact unit_zero), zero_mul, zero_mul, zero_mul]
  constructor
  · funext h
    unfold qavg
    congr 1
    refine Finset.sum_congr rfl fun q _ => ?_
    rcases hma q with h0 | ⟨_, hq⟩
    · rw [h0, mul_zero, mul_zero]
    · rw [hq]
  · funext h
    unfold qbd
    congr 1
    refine Finset.sum_congr rfl fun q _ => ?_
    rcases hma q with h0 | ⟨_, hq⟩
    · rw [h0, mul_zero, mul_zero]
    · rw [hpqd q hq h]

end rows

/-- The two averages side by side. -/
def cat (u v : Fin 768 → EReal) (k : Fin 1536) : EReal :=
  if hk : k.val < 768 then u ⟨k.val, hk⟩ else v ⟨k.val - 768, by omega⟩
/-- The hidden layer: affine, then the ramp. -/
def hid (u v : Fin 768 → EReal) (w1 : Fin 1536 → Fin 768 → EReal) (b1 : Fin 768 → EReal) (j : Fin 768) : EReal :=
  max ((∑ k, cat u v k * w1 k j) + b1 j) 0
/-- The output layer's product, before its bias. -/
def pre_out (u v : Fin 768 → EReal) (w1 : Fin 1536 → Fin 768 → EReal) (b1 : Fin 768 → EReal)
    (w2 : Fin 768 → Fin 2 → EReal) (c : Fin 2) : EReal :=
  ∑ j, hid u v w1 b1 j * w2 j c
/-- The output layer. -/
def out (u v : Fin 768 → EReal) (w1 : Fin 1536 → Fin 768 → EReal) (b1 : Fin 768 → EReal)
    (w2 : Fin 768 → Fin 2 → EReal) (b2 : Fin 2 → EReal) (c : Fin 2) : EReal :=
  pre_out u v w1 b1 w2 c + b2 c
/-- One batch's two logits from its gathered rows and masks. -/
def logit (ra : Fin 64 → Fin 768 → EReal) (ma : Fin 64 → EReal) (rb : Fin 256 → Fin 768 → EReal) (mb : Fin 256 → EReal)
    (w1 : Fin 1536 → Fin 768 → EReal) (b1 : Fin 768 → EReal) (w2 : Fin 768 → Fin 2 → EReal) (b2 : Fin 2 → EReal)
    (c : Fin 2) : EReal :=
  out (qavg ra ma) (qbd ra ma rb mb) w1 b1 w2 b2 c

/-! ## Rows gathered by a 32-bit index, and the mask -/

/-- A token counts when its index is positive (as a signed word). -/
def mask (i : BitVec 32) : EReal := if 0 < i.toInt then 1 else 0

/-- Gathering by comparing the index word with each position `0 … 511`: the row at the index when the word is one of
    those positions, the zero row otherwise. -/
def rowK (X : Fin 512 → Fin 768 → EReal) (i : BitVec 32) (h : Fin 768) : EReal :=
  if hi : i.toNat < 512 then X ⟨i.toNat, hi⟩ h else 0

/-- The index as the take-along-axis normalises it: a negative one counts from the end. -/
def wrap (i : BitVec 32) : BitVec 32 := if i.toInt < 0 then i + 512#32 else i

/-- Gathering with the normalised index: the row there when it lies in `0 … 511`, the junk value `⊥` otherwise. -/
def rowR (X : Fin 512 → Fin 768 → EReal) (i : BitVec 32) (h : Fin 768) : EReal :=
  if hi : 0 ≤ (wrap i).toInt ∧ (wrap i).toInt ≤ 511 then X ⟨(wrap i).toNat, by
    have := hi.1; have := hi.2; have h2 := BitVec.toInt_eq_toNat_cond (wrap i); split at h2 <;> omega⟩ h else ⊥

end Cert.PoolSpec

end
-- ==== Proof.PoolRows.lean ====
/-
  The two ways of gathering a row by a 32-bit index word agree where it matters.
  For a positive word below 512 both give the table's row at the word. For a positive word from 512 up one gives the
  row of all `⊥` and the other the zero row, and the pooling head cannot tell those apart on the document side
  (`PoolSpec.congr`); on the query side such words are excluded by hypothesis. A word that is not positive is masked.
-/
import proofs.«402888_j21912923144748_1_alg».proof.Proof.PoolSpec

noncomputable section

open scoped BigOperators

namespace Cert.PoolSpec

open Idealize.ShloMosaic

theorem mask_cases (i : BitVec 32) : mask i = 0 ∨ (mask i = 1 ∧ 0 < i.toInt) := by
  unfold mask
  by_cases h : 0 < i.toInt
  · right; exact ⟨if_pos h, h⟩
  · left; exact if_neg h

/-- A word whose signed value is not negative has that value as its unsigned value. -/
private theorem toNat_of_toInt_nonneg (i : BitVec 32) (h0 : 0 ≤ i.toInt) : (i.toNat : Int) = i.toInt := by
  have hc := BitVec.toInt_eq_toNat_cond i
  have hlt := i.isLt
  split at hc <;> omega

/-- A word that is not negative is its own normalisation. -/
private theorem wrap_of_nonneg (i : BitVec 32) (h0 : 0 ≤ i.toInt) : wrap i = i := by
  unfold wrap
  exact if_neg (by omega)

/-- A positive index below 512 gathers the same row either way. -/
theorem rowR_eq_rowK (X : Fin 512 → Fin 768 → EReal) (i : BitVec 32) (h0 : 0 < i.toInt) (h1 : i.toInt < 512) :
    rowR X i = rowK X i := by
  have hw : wrap i = i := wrap_of_nonneg i (by omega)
  have hc := toNat_of_toInt_nonneg i (by omega)
  have hn : i.toNat < 512 := by omega
  have hi : 0 ≤ (wrap i).toInt ∧ (wrap i).toInt ≤ 511 := by rw [hw]; omega
  funext h
  unfold rowR rowK
  rw [dif_pos hn, dif_pos hi]
  have hf : (⟨(wrap i).toNat, by
      have := hi.1; have := hi.2; have h2 := BitVec.toInt_eq_toNat_cond (wrap i); split at h2 <;> omega⟩ : Fin 512)
      = ⟨i.toNat, hn⟩ := Fin.ext (by show (wrap i).toNat = i.toNat; rw [hw])
  rw [hf]

/-- A positive index from 512 up: `⊥` one way, `0` the other. -/
theorem rowR_bot_rowK_zero (X : Fin 512 → Fin 768 → EReal) (i : BitVec 32) (h1 : 512 ≤ i.toInt) :
    rowR X i = (fun _ => ⊥) ∧ rowK X i = fun _ => 0 := by
  have hw : wrap i = i := wrap_of_nonneg i (by omega)
  have hc := toNat_of_toInt_nonneg i (by omega)
  have hn : ¬ i.toNat < 512 := by omega
  have hi : ¬ (0 ≤ (wrap i).toInt ∧ (wrap i).toInt ≤ 511) := by rw [hw]; omega
  constructor
  · funext h
    unfold rowR
    rw [dif_neg hi]
  · funext h
    unfold rowK
    rw [dif_neg hn]

/-- The two ways of gathering give the same logits when every query index is below 512. -/
theorem logit_rowR_eq_rowK (X : Fin 512 → Fin 768 → EReal) (ia : Fin 64 → BitVec 32) (ib : Fin 256 → BitVec 32)
    (ha : ∀ q, (ia q).toInt < 512)
    (w1 : Fin 1536 → Fin 768 → EReal) (b1 : Fin 768 → EReal) (w2 : Fin 768 → Fin 2 → EReal) (b2 : Fin 2 → EReal) (c : Fin 2) :
    logit (fun q => rowR X (ia q)) (fun q => mask (ia q)) (fun d => rowR X (ib d)) (fun d => mask (ib d)) w1 b1 w2 b2 c
    = logit (fun q => rowK X (ia q)) (fun q => mask (ia q)) (fun d => rowK X (ib d)) (fun d => mask (ib d)) w1 b1 w2 b2 c := by
  have hma : ∀ q, (fun q => mask (ia q)) q = 0 ∨
      ((fun q => mask (ia q)) q = 1 ∧ (fun q => rowR X (ia q)) q = (fun q => rowK X (ia q)) q) := by
    intro q
    rcases mask_cases (ia q) with h | ⟨h, hp⟩
    · exact Or.inl h
    · exact Or.inr ⟨h, rowR_eq_rowK X (ia q) hp (ha q)⟩
  have hmb : ∀ d, (fun d => mask (ib d)) d = 0 ∨
      ((fun d => mask (ib d)) d = 1 ∧
        ((fun d => rowR X (ib d)) d = (fun d => rowK X (ib d)) d ∨
          ((fun d => rowR X (ib d)) d = (fun _ => ⊥) ∧ (fun d => rowK X (ib d)) d = fun _ => 0))) := by
    intro d
    rcases mask_cases (ib d) with h | ⟨h, hp⟩
    · exact Or.inl h
    · refine Or.inr ⟨h, ?_⟩
      by_cases hlt : (ib d).toInt < 512
      · exact Or.inl (rowR_eq_rowK X (ib d) hp hlt)
      · exact Or.inr (rowR_bot_rowK_zero X (ib d) (by omega))
  obtain ⟨e1, e2⟩ := congr (Q := Fin 64) (D := Fin 256) (H := Fin 768) hma hmb
  unfold logit
  rw [e1, e2]

end Cert.PoolSpec

end
-- ==== Proof.PreDecode.lean ====
/-
  The precondition read back: where the printed predicate holds, every query index word is below 512 as a signed
  number. The predicate is a conjunction whose last conjunct is "all of `text_a_indices < 512`": an `and` over the whole
  index array of a signed compare against the constant 512.
-/
import proofs.«402888_j21912923144748_1_alg».proof.Pre_finite_inputs
import proofs.«402888_j21912923144748_1_alg».proof.Proof.Gen.Pre_finite_inputs
import Idealize.ShloMosaic.Lib.ReduceAll
import Idealize.ShloMosaic.Lib.Affine
import Idealize.ShloMosaic.Lib.ValueIdx
import Idealize.ShloMosaic.Lib.Pipeline.Value

noncomputable section

namespace Cert.PreDecode

open Idealize.ShloMosaic Idealize.ShloMosaic.ValueIdx Cert.Pre_finite_inputs Cert.Pre_finite_inputs.Facts

instance : Subsingleton S_.Idx := ⟨fun a b => funext fun d => d.elim0⟩

variable {F : FTy → Type} [FloatOps F]

/-- Every query index is below 512. -/
theorem idx_lt (a0 : FVec F S8x512x768 .f32) (a1 : IVec S8x64 32) (a2 : IVec S8x256 32) (a3 : FVec F S1536x768 .f32)
    (a4 : FVec F S768 .f32) (a5 : FVec F S768x2 .f32) (a6 : FVec F S2 .f32)
    (h : Cert.Pre_finite_inputs.fn (F := F) a0 a1 a2 a3 a4 a5 a6 = fun _ => 1#1) (i : S8x64.Idx) :
    (a1 i).toInt < 512 := by
  have h0 := congrFun h ix0
  dsimp only [Cert.Pre_finite_inputs.fn, Cert.Pre_finite_inputs.fn_part1] at h0
  obtain ⟨-, h26⟩ := IntOp.andi_eq_one.mp h0
  have hi := Host.reduce_andi_all _ _ _ _ _ h26 i
  have hlt := IntOp.cmpi_slt.mp hi
  have hb : broadcastInDim S8x64 ![] bcast_S_S8x64 (constantI S_ 32 512#32) i = 512#32 :=
    (broadcastInDim_apply _ bcast_S_S8x64 (constantI S_ 32 512#32) i (fun a => a.elim0) (fun a => a.elim0)).trans rfl
  rw [hb] at hlt
  have h512 : (512#32 : BitVec 32).toInt = 512 := by decide
  rw [h512] at hlt
  exact hlt

end Cert.PreDecode

end
-- ==== Proof.KerRows.lean ====
/-
  The first half of the kernel body read at an index, at the extended reals.
  A gathered row: the product of the 0/1 matrix `[index word = position]` with the batch's token table is, at row `q`,
  the sum over the 512 positions of `[word q = s] * X s h` — the row at the word when the word is a position, the zero
  row otherwise (`0 * x = 0` for every extended real). The masks are `[0 < word]` as 0 or 1, the lengths their sums.
-/
import proofs.«402888_j21912923144748_1_alg».proof.Proof.Gen.KernelIdeal.Skeleton
import proofs.«402888_j21912923144748_1_alg».proof.Proof.PoolSpec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Rows

open Idealize.ShloMosaic Idealize.ShloMosaic.ValueIdx Idealize.SL.Sem Cert.KernelIdeal Cert.KernelIdeal.Gen Cert.PoolSpec

/-! ## Column forms of the layout operations, and a row reduction's source index -/

section Layout
variable {α : Type}

/-- A `[1, a]` array cast to `[a, 1]` reads, at `(i, u)`, the operand at `(0, i)`. -/
private theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a matrix's sum along its rows: the row, then the summed coordinate. -/
private theorem lift_rows {a b : ℕ} (h : (⟨2, ![a, b]⟩ : Shape).Reduces [1] ⟨1, ![a]⟩) (r : Fin a) (k : Fin b) :
    h.lift (ix1 r) k = ix2 r k := by
  funext c
  match c with
  | ⟨0, _⟩ => rfl
  | ⟨1, _⟩ => rfl

end Layout

/-! ## The 0/1 words -/

/-- `[0 < w]` as a one-bit word, widened and converted, is the mask: 1 when the word is positive, else 0. -/
theorem sgt_mask (w : BitVec 32) :
    (FloatOps.sitofp .f32 ((IntOp.cmpi .sgt w 0#32).setWidth 32) : Ideal .f32) = mask w := by
  show ((((IntOp.cmpi .sgt w 0#32).setWidth 32).toInt : ℝ) : EReal) = mask w
  unfold mask IntOp.cmpi
  by_cases h : 0 < w.toInt
  · have hs : (0#32).slt w = true := by simp [BitVec.slt, h]
    simp [hs, h]
  · have hs : (0#32).slt w = false := by simp [BitVec.slt, h]
    simp [hs, h]

/-- `[w = v]` as a one-bit word, widened and converted, is 1 or 0. -/
theorem eq_onehot (w v : BitVec 32) :
    (FloatOps.sitofp .f32 ((IntOp.cmpi .eq w v).setWidth 32) : Ideal .f32) = if w = v then 1 else 0 := by
  show ((((IntOp.cmpi .eq w v).setWidth 32).toInt : ℝ) : EReal) = _
  unfold IntOp.cmpi
  by_cases h : w = v
  · simp [h]
  · have hb : (w == v) = false := by simp [h]
    simp [hb, h]

/-- The sum over the 512 positions of `[w = s] * X s h`: the row at the word when the word is a position (every other
    term is `0 * x = 0`), and `0` when it is none. -/
theorem sum_onehot (X : Fin 512 → Fin 768 → EReal) (w : BitVec 32) (h : Fin 768) :
    ∑ s : Fin 512, (if w = BitVec.ofNat 32 s.val then (1 : EReal) else 0) * X s h = rowK X w h := by
  unfold rowK
  split
  · next hi =>
    rw [Finset.sum_eq_single (⟨w.toNat, hi⟩ : Fin 512)]
    · rw [if_pos (by simp), one_mul]
    · intro s _ hs
      rw [if_neg, zero_mul]
      intro e
      apply hs
      apply Fin.ext
      have := congrArg BitVec.toNat e
      rw [BitVec.toNat_ofNat] at this
      have hs' := s.isLt
      show s.val = w.toNat
      omega
    · intro hn; exact absurd (Finset.mem_univ _) hn
  · next hi =>
    refine Finset.sum_eq_zero fun s _ => ?_
    rw [if_neg, zero_mul]
    intro e
    apply hi
    have := congrArg BitVec.toNat e
    rw [BitVec.toNat_ofNat] at this
    have hs' := s.isLt
    omega

/-! ## The two products' operand indices -/

theorem lhs_q_0 (i : S64x768.Idx) (q : dot_S64x512_S512x768_S64x768_1_0_0_1_n_n.contr.Idx) :
    (dot_S64x512_S512x768_S64x768_1_0_0_1_n_n.lhsIdx i q 0).val = (i 0).val := by
  unfold DotDims.lhsIdx
  rw [dif_neg (show ¬(0 : Fin S64x512.rank) ∈ dot_S64x512_S512x768_S64x768_1_0_0_1_n_n.lhsBatch by decide), dif_pos (show (0 : Fin S64x512.rank) ∈ dot_S64x512_S512x768_S64x768_1_0_0_1_n_n.lhsNonContracting by decide)]
  rfl
theorem lhs_q_1 (i : S64x768.Idx) (q : dot_S64x512_S512x768_S64x768_1_0_0_1_n_n.contr.Idx) :
    (dot_S64x512_S512x768_S64x768_1_0_0_1_n_n.lhsIdx i q 1).val = (q ⟨0, by decide⟩).val :=
  dot_S64x512_S512x768_S64x768_1_0_0_1_n_n.lhsIdx_val_of_single rfl i q
theorem rhs_q_0 (i : S64x768.Idx) (q : dot_S64x512_S512x768_S64x768_1_0_0_1_n_n.contr.Idx) :
    (dot_S64x512_S512x768_S64x768_1_0_0_1_n_n.rhsIdx i q 0).val = (q ⟨0, by decide⟩).val :=
  dot_S64x512_S512x768_S64x768_1_0_0_1_n_n.rhsIdx_val_of_single rfl i q
theorem rhs_q_1 (i : S64x768.Idx) (q : dot_S64x512_S512x768_S64x768_1_0_0_1_n_n.contr.Idx) :
    (dot_S64x512_S512x768_S64x768_1_0_0_1_n_n.rhsIdx i q 1).val = (i 1).val := by
  unfold DotDims.rhsIdx
  rw [dif_neg (show ¬(1 : Fin S512x768.rank) ∈ dot_S64x512_S512x768_S64x768_1_0_0_1_n_n.rhsBatch by decide), dif_pos (show (1 : Fin S512x768.rank) ∈ dot_S64x512_S512x768_S64x768_1_0_0_1_n_n.rhsNonContracting by decide)]
  rfl

theorem lhs_d_0 (i : S256x768.Idx) (q : dot_S256x512_S512x768_S256x768_1_0_0_1_n_n.contr.Idx) :
    (dot_S256x512_S512x768_S256x768_1_0_0_1_n_n.lhsIdx i q 0).val = (i 0).val := by
  unfold DotDims.lhsIdx
  rw [dif_neg (show ¬(0 : Fin S256x512.rank) ∈ dot_S256x512_S512x768_S256x768_1_0_0_1_n_n.lhsBatch by decide), dif_pos (show (0 : Fin S256x512.rank) ∈ dot_S256x512_S512x768_S256x768_1_0_0_1_n_n.lhsNonContracting by decide)]
  rfl
theorem lhs_d_1 (i : S256x768.Idx) (q : dot_S256x512_S512x768_S256x768_1_0_0_1_n_n.contr.Idx) :
    (dot_S256x512_S512x768_S256x768_1_0_0_1_n_n.lhsIdx i q 1).val = (q ⟨0, by decide⟩).val :=
  dot_S256x512_S512x768_S256x768_1_0_0_1_n_n.lhsIdx_val_of_single rfl i q
theorem rhs_d_0 (i : S256x768.Idx) (q : dot_S256x512_S512x768_S256x768_1_0_0_1_n_n.contr.Idx) :
    (dot_S256x512_S512x768_S256x768_1_0_0_1_n_n.rhsIdx i q 0).val = (q ⟨0, by decide⟩).val :=
  dot_S256x512_S512x768_S256x768_1_0_0_1_n_n.rhsIdx_val_of_single rfl i q
theorem rhs_d_1 (i : S256x768.Idx) (q : dot_S256x512_S512x768_S256x768_1_0_0_1_n_n.contr.Idx) :
    (dot_S256x512_S512x768_S256x768_1_0_0_1_n_n.rhsIdx i q 1).val = (i 1).val := by
  unfold DotDims.rhsIdx
  rw [dif_neg (show ¬(1 : Fin S512x768.rank) ∈ dot_S256x512_S512x768_S256x768_1_0_0_1_n_n.rhsBatch by decide), dif_pos (show (1 : Fin S512x768.rank) ∈ dot_S256x512_S512x768_S256x768_1_0_0_1_n_n.rhsNonContracting by decide)]
  rfl

/-! ## The operands at an index -/

/-- The token table without its unit axis. -/
theorem pay2_apply (x0 : Vec Ideal S1x512x768 .f32) (s : Fin 512) (h : Fin 768) :
    k0_pay2 (F := Ideal) x0 (ix2 s h) = x0 (ix3 0 s h) := by
  unfold k0_pay2
  exact shapeCast_1ab_ab_apply _ _ _ _

/-- The query index words as a column. -/
theorem pay8_apply (x1 : Vec Ideal S1x1x64 .i32) (q : Fin 64) :
    k0_pay8 (F := Ideal) x1 (ix2 q 0) = x1 (ix3 0 0 q) := by
  unfold k0_pay8 k0_pay3
  exact (shapeCast_1a_a1_apply _ _ _ _).trans (shapeCast_1ab_ab_apply _ _ _ _)

/-- The document index words as a column. -/
theorem col4_apply (x2 : Vec Ideal S1x1x256 .i32) (d : Fin 256) :
    shapeCast S256x1 (k0_pay4 (F := Ideal) x2) shapeCasts_S1x256_S256x1 (ix2 d 0) = x2 (ix3 0 0 d) := by
  unfold k0_pay4
  exact (shapeCast_1a_a1_apply _ _ _ _).trans (shapeCast_1ab_ab_apply _ _ _ _)

/-- The 0/1 matrix `[word p = position s]` at `(p, s)`. -/
theorem onehot_apply {a : ℕ} (col : IVec ⟨2, ![a, 1]⟩ 32) (hb : (⟨2, ![a, 1]⟩ : Shape).Broadcasts ⟨2, ![a, 512]⟩)
    (hb' : S1x512.Broadcasts ⟨2, ![a, 512]⟩) (p : Fin a) (s : Fin 512) :
    (sitofp .f32 (extui 32 (cmpi .eq (broadcastTo ⟨2, ![a, 512]⟩ col hb)
        (broadcastTo ⟨2, ![a, 512]⟩ (iota .tc S1x512 32 [1] iota_S1x512_d1_w32) hb')) natLt_1_32) : FVec Ideal ⟨2, ![a, 512]⟩ .f32) (ix2 p s)
      = if col (ix2 p 0) = BitVec.ofNat 32 s.val then (1 : EReal) else 0 := by
  show (FloatOps.sitofp .f32 ((IntOp.cmpi .eq (broadcastTo ⟨2, ![a, 512]⟩ col hb (ix2 p s))
      (broadcastTo ⟨2, ![a, 512]⟩ (iota .tc S1x512 32 [1] iota_S1x512_d1_w32) hb' (ix2 p s))).setWidth 32) : Ideal .f32) = _
  rw [broadcastTo_a1_ab_apply, broadcastTo_1b_ab_apply, iota_single_apply, eq_onehot]

/-! ## The payloads -/

/-- The query-side gathered rows. -/
theorem pay10_apply (x0 : Vec Ideal S1x512x768 .f32) (x1 : Vec Ideal S1x1x64 .i32) (q : Fin 64) (h : Fin 768) :
    k0_pay10 (F := Ideal) x0 x1 (ix2 q h) = rowK (fun s h => x0 (ix3 0 s h)) (x1 (ix3 0 0 q)) h := by
  unfold k0_pay10
  refine (Ideal.matmul_constant_zero_apply _ _ _ _ _).trans ?_
  rw [← Equiv.sum_comp (contrEquiv1 dot_S64x512_S512x768_S64x768_1_0_0_1_n_n 512 rfl rfl).symm, ← sum_onehot]
  refine Finset.sum_congr rfl fun s _ => ?_
  have hk := contrEquiv1_symm_val dot_S64x512_S512x768_S64x768_1_0_0_1_n_n 512 rfl rfl s
  have el : dot_S64x512_S512x768_S64x768_1_0_0_1_n_n.lhsIdx (ix2 q h) ((contrEquiv1 dot_S64x512_S512x768_S64x768_1_0_0_1_n_n 512 rfl rfl).symm s) = ix2 q s := funext fun a => Fin.ext (by
    match a with
    | ⟨0, _⟩ => exact lhs_q_0 _ _
    | ⟨1, _⟩ => exact (lhs_q_1 _ _).trans hk)
  have er : dot_S64x512_S512x768_S64x768_1_0_0_1_n_n.rhsIdx (ix2 q h) ((contrEquiv1 dot_S64x512_S512x768_S64x768_1_0_0_1_n_n 512 rfl rfl).symm s) = ix2 s h := funext fun a => Fin.ext (by
    match a with
    | ⟨0, _⟩ => exact (rhs_q_0 _ _).trans hk
    | ⟨1, _⟩ => exact rhs_q_1 _ _)
  rw [el, er]
  refine congrArg₂ (fun a b : EReal => a * b) ?_ (pay2_apply x0 s h)
  refine (onehot_apply _ _ _ q s).trans ?_
  rw [pay8_apply]

/-- The document-side gathered rows. -/
theorem pay11_apply (x0 : Vec Ideal S1x512x768 .f32) (x2 : Vec Ideal S1x1x256 .i32) (d : Fin 256) (h : Fin 768) :
    k0_pay11 (F := Ideal) x0 x2 (ix2 d h) = rowK (fun s h => x0 (ix3 0 s h)) (x2 (ix3 0 0 d)) h := by
  unfold k0_pay11
  refine (Ideal.matmul_constant_zero_apply _ _ _ _ _).trans ?_
  rw [← Equiv.sum_comp (contrEquiv1 dot_S256x512_S512x768_S256x768_1_0_0_1_n_n 512 rfl rfl).symm, ← sum_onehot]
  refine Finset.sum_congr rfl fun s _ => ?_
  have hk := contrEquiv1_symm_val dot_S256x512_S512x768_S256x768_1_0_0_1_n_n 512 rfl rfl s
  have el : dot_S256x512_S512x768_S256x768_1_0_0_1_n_n.lhsIdx (ix2 d h) ((contrEquiv1 dot_S256x512_S512x768_S256x768_1_0_0_1_n_n 512 rfl rfl).symm s) = ix2 d s := funext fun a => Fin.ext (by
    match a with
    | ⟨0, _⟩ => exact lhs_d_0 _ _
    | ⟨1, _⟩ => exact (lhs_d_1 _ _).trans hk)
  have er : dot_S256x512_S512x768_S256x768_1_0_0_1_n_n.rhsIdx (ix2 d h) ((contrEquiv1 dot_S256x512_S512x768_S256x768_1_0_0_1_n_n 512 rfl rfl).symm s) = ix2 s h := funext fun a => Fin.ext (by
    match a with
    | ⟨0, _⟩ => exact (rhs_d_0 _ _).trans hk
    | ⟨1, _⟩ => exact rhs_d_1 _ _)
  rw [el, er]
  refine congrArg₂ (fun a b : EReal => a * b) ?_ (pay2_apply x0 s h)
  refine (onehot_apply _ _ _ d s).trans ?_
  rw [col4_apply]

/-- The document mask, as a row. -/
theorem pay5_apply (x2 : Vec Ideal S1x1x256 .i32) (d : Fin 256) :
    k0_pay5 (F := Ideal) x2 (ix2 0 d) = mask (x2 (ix3 0 0 d)) := by
  unfold k0_pay5 k0_pay4
  show (FloatOps.sitofp .f32 ((IntOp.cmpi .sgt (shapeCast S1x256 x2 shapeCasts_S1x1x256_S1x256 (ix2 0 d)) 0#32).setWidth 32) : Ideal .f32) = _
  rw [shapeCast_1ab_ab_apply, sgt_mask]

/-- The query mask, as a column. -/
theorem pay9_apply (x1 : Vec Ideal S1x1x64 .i32) (q : Fin 64) :
    k0_pay9 (F := Ideal) x1 (ix2 q 0) = mask (x1 (ix3 0 0 q)) := by
  unfold k0_pay9 k0_pay8 k0_pay3
  show (FloatOps.sitofp .f32 ((IntOp.cmpi .sgt (shapeCast S64x1 (shapeCast S1x64 x1 shapeCasts_S1x1x64_S1x64) shapeCasts_S1x64_S64x1 (ix2 q 0)) 0#32).setWidth 32) : Ideal .f32) = _
  rw [shapeCast_1a_a1_apply, shapeCast_1ab_ab_apply, sgt_mask]

/-- The number of unmasked query tokens. -/
theorem pay6_apply (x1 : Vec Ideal S1x1x64 .i32) :
    k0_pay6 (F := Ideal) x1 (ix2 0 0) = len (fun q : Fin 64 => mask (x1 (ix3 0 0 q))) := by
  unfold k0_pay6
  refine (shapeCast_a_1a_apply _ _ _ _).trans ?_
  refine (Ideal.multiReduction_add_single _ _ reduces_S1x64_S1 _ _ (ix1 0)).trans ?_
  unfold len
  refine Finset.sum_congr rfl fun (k : Fin 64) _ => ?_
  refine (congrArg _ (lift_rows reduces_S1x64_S1 0 k)).trans ?_
  unfold k0_pay3
  show (FloatOps.sitofp .f32 ((IntOp.cmpi .sgt (shapeCast S1x64 x1 shapeCasts_S1x1x64_S1x64 (ix2 0 k)) 0#32).setWidth 32) : Ideal .f32) = _
  rw [shapeCast_1ab_ab_apply, sgt_mask]

/-- The number of unmasked document tokens. -/
theorem pay7_apply (x2 : Vec Ideal S1x1x256 .i32) :
    k0_pay7 (F := Ideal) x2 (ix2 0 0) = len (fun d : Fin 256 => mask (x2 (ix3 0 0 d))) := by
  unfold k0_pay7
  refine (shapeCast_a_1a_apply _ _ _ _).trans ?_
  refine (Ideal.multiReduction_add_single _ _ reduces_S1x256_S1 _ _ (ix1 0)).trans ?_
  unfold len
  refine Finset.sum_congr rfl fun (k : Fin 256) _ => ?_
  refine (congrArg _ (lift_rows reduces_S1x256_S1 0 k)).trans ?_
  exact pay5_apply x2 k

/-- A query row's norm, before the clamp. -/
theorem pay12_apply (x0 : Vec Ideal S1x512x768 .f32) (x1 : Vec Ideal S1x1x64 .i32) (q : Fin 64) :
    k0_pay12 (F := Ideal) x0 x1 (ix2 q 0)
      = Ideal.sqrt (∑ h : Fin 768, k0_pay10 (F := Ideal) x0 x1 (ix2 q h) * k0_pay10 (F := Ideal) x0 x1 (ix2 q h)) := by
  unfold k0_pay12
  show Ideal.sqrt (shapeCast S64x1 (multiReduction .add [1] S64 (mulf (k0_pay10 (F := Ideal) x0 x1) (k0_pay10 (F := Ideal) x0 x1)) 0x00000000#32 reduces_S64x768_S64 (.inl rfl) rfl) shapeCasts_S64_S64x1 (ix2 q 0)) = _
  congr 1
  refine (shapeCast_a_a1_apply _ _ _ _).trans ?_
  refine (Ideal.multiReduction_add_single _ _ reduces_S64x768_S64 _ _ (ix1 q)).trans ?_
  refine Finset.sum_congr rfl fun (k : Fin 768) _ => ?_
  refine (congrArg _ (lift_rows reduces_S64x768_S64 q k)).trans ?_
  rfl

/-- The document rows' squares. -/
theorem pay13_apply (x0 : Vec Ideal S1x512x768 .f32) (x2 : Vec Ideal S1x1x256 .i32) (d : Fin 256) (h : Fin 768) :
    k0_pay13 (F := Ideal) x0 x2 (ix2 d h) = k0_pay11 (F := Ideal) x0 x2 (ix2 d h) * k0_pay11 (F := Ideal) x0 x2 (ix2 d h) := rfl

end Cert.KernelIdeal.Rows

end
-- ==== Proof.KerStages.lean ====
/-
  The second half of the kernel body, cut in two where the per-query document average is complete.
  `perQuery` is the body from the document rows' norms to `per_q_doc` (scaling both sides' rows by their clamped norms,
  the similarity matrix, the document mask, the weighted sum of document rows, the division by the document count);
  `head` is the rest (the masked averages over the query tokens, the two averages side by side, the two dense layers).
  The body's value is `head` of `perQuery`: the same operations in the same order, so the equation is by unfolding.
-/
import proofs.«402888_j21912923144748_1_alg».proof.Proof.Gen.KernelIdeal.Skeleton

set_option synthInstance.maxSize 4096

noncomputable section

namespace Cert.KernelIdeal.Stages

open Idealize.ShloMosaic Idealize.SL.Sem Cert.KernelIdeal Cert.KernelIdeal.Gen

variable {F : FTy → Type} [FloatOps F]

/-- From the gathered rows and their squared norms to the per-query weighted document average. -/
noncomputable def perQuery (v13 : FVec F S1x256 .f32) (v17 : FVec F S1x1 .f32) (v35 : FVec F S64x768 .f32) (v36 : FVec F S256x768 .f32) (v40 : FVec F S64x1 .f32) (v41 : FVec F S256x768 .f32) : FVec F S64x768 .f32 :=
  have v42 : FVec F S256 .f32 := multiReduction .add [1] S256 v41 0x00000000#32 reduces_S256x768_S256 (.inl rfl) rfl
  have v43 : FVec F S256x1 .f32 := shapeCast S256x1 v42 shapeCasts_S256_S256x1
  have v44 : FVec F S256x1 .f32 := sqrt v43
  have cst_15 : F .f32 := Scalar.ofBits .f32 0x322BCC77#32
  have v45 : FVec F S64x1 .f32 := broadcast S64x1 cst_15
  have v46 : FVec F S64x1 .f32 := maximumf v40 v45
  have v47 : FVec F S64x768 .f32 := broadcastTo S64x768 v46 broadcasts_S64x1_S64x768
  have v48 : FVec F S64x768 .f32 := divf v35 v47
  have cst_16 : F .f32 := Scalar.ofBits .f32 0x322BCC77#32
  have v49 : FVec F S256x1 .f32 := broadcast S256x1 cst_16
  have v50 : FVec F S256x1 .f32 := maximumf v44 v49
  have v51 : FVec F S256x768 .f32 := broadcastTo S256x768 v50 broadcasts_S256x1_S256x768
  have v52 : FVec F S256x768 .f32 := divf v36 v51
  have v53 : FVec F S768x256 .f32 := transpose S768x256 [1, 0] v52 transposes_S256x768_p1_0_S768x256
  have cst_17 : FVec F S64x256 .f32 := constant S64x256 .f32 0x00000000#32
  have v54 : FVec F S64x256 .f32 := matmul dot_S64x768_S768x256_S64x256_1_0_0_1_n_n (some .fp32) v48 v53 cst_17
  have v55 : FVec F S64x256 .f32 := broadcastTo S64x256 v13 broadcasts_S1x256_S64x256
  have v56 : FVec F S64x256 .f32 := mulf v54 v55
  have cst_18 : FVec F S64x768 .f32 := constant S64x768 .f32 0x00000000#32
  have v57 : FVec F S64x768 .f32 := matmul dot_S64x256_S256x768_S64x768_1_0_0_1_n_n (some .fp32) v56 v36 cst_18
  have v58 : FVec F S64x768 .f32 := broadcastTo S64x768 v17 broadcasts_S1x1_S64x768
  have v59 : FVec F S64x768 .f32 := divf v57 v58
  v59

/-- From the per-query averages to the output layer's product (the output bias is added after it). -/
noncomputable def head (v15 : FVec F S1x1 .f32) (v24 : FVec F S64x1 .f32) (v35 : FVec F S64x768 .f32) (v59 : FVec F S64x768 .f32) (v73 : Vec F S1536x768 .f32) (v75 : Vec F S1x768 .f32) (v80 : Vec F S768x2 .f32) : FVec F S1x2 .f32 :=
  have v60 : FVec F S64x768 .f32 := broadcastTo S64x768 v24 broadcasts_S64x1_S64x768
  have v61 : FVec F S64x768 .f32 := mulf v59 v60
  have v62 : FVec F S768 .f32 := multiReduction .add [0] S768 v61 0x00000000#32 reduces_S64x768_S768 (.inl rfl) rfl
  have v63 : FVec F S1x768 .f32 := shapeCast S1x768 v62 shapeCasts_S768_S1x768
  have v64 : FVec F S1x768 .f32 := broadcastTo S1x768 v15 broadcasts_S1x1_S1x768
  have v65 : FVec F S1x768 .f32 := divf v63 v64
  have v66 : FVec F S64x768 .f32 := broadcastTo S64x768 v24 broadcasts_S64x1_S64x768
  have v67 : FVec F S64x768 .f32 := mulf v35 v66
  have v68 : FVec F S768 .f32 := multiReduction .add [0] S768 v67 0x00000000#32 reduces_S64x768_S768 (.inl rfl) rfl
  have v69 : FVec F S1x768 .f32 := shapeCast S1x768 v68 shapeCasts_S768_S1x768
  have v70 : FVec F S1x768 .f32 := broadcastTo S1x768 v15 broadcasts_S1x1_S1x768
  have v71 : FVec F S1x768 .f32 := divf v69 v70
  have v72 : FVec F S1x1536 .f32 := concatenate S1x1536 1 [⟨S1x768, v71⟩, ⟨S1x768, v65⟩] concatenates_S1x768_S1x768_S1x1536_d1
  have cst_23 : FVec F S1x768 .f32 := constant S1x768 .f32 0x00000000#32
  have v74 : FVec F S1x768 .f32 := matmul dot_S1x1536_S1536x768_S1x768_1_0_0_1_n_n (some .fp32) v72 v73 cst_23
  have v76 : FVec F S1x768 .f32 := shapeCast S1x768 v75 shapeCasts_S1x768_S1x768
  have v77 : FVec F S1x768 .f32 := addf v74 v76
  have cst_26 : F .f32 := Scalar.ofBits .f32 0x00000000#32
  have v78 : FVec F S1x768 .f32 := broadcast S1x768 cst_26
  have v79 : FVec F S1x768 .f32 := maximumf v77 v78
  have cst_29 : FVec F S1x2 .f32 := constant S1x2 .f32 0x00000000#32
  have v81 : FVec F S1x2 .f32 := matmul dot_S1x768_S768x2_S1x2_1_0_0_1_n_n (some .fp32) v79 v80 cst_29
  v81

/-- The body's second half is `head` after `perQuery`. -/
theorem pay14_eq (v13 : FVec F S1x256 .f32) (v15 : FVec F S1x1 .f32) (v17 : FVec F S1x1 .f32) (v24 : FVec F S64x1 .f32) (v35 : FVec F S64x768 .f32) (v36 : FVec F S256x768 .f32) (v40 : FVec F S64x1 .f32) (v41 : FVec F S256x768 .f32) (v73 : Vec F S1536x768 .f32) (v75 : Vec F S1x768 .f32) (v80 : Vec F S768x2 .f32) :
    k0_pay14 v13 v15 v17 v24 v35 v36 v40 v41 v73 v75 v80 = head v15 v24 v35 (perQuery v13 v17 v35 v36 v40 v41) v73 v75 v80 := rfl

end Cert.KernelIdeal.Stages

end
-- ==== Proof.KerPqd.lean ====
/-
  `perQuery` read at an index: from rows `ra q = v35 (q, ·)`, `rb d = v36 (d, ·)`, the query rows' norms `v40`, the
  document rows' squares `v41`, the document mask `v13` and the document count `v17`, entry `(q, h)` is the
  specification's `pqd`: scale each row by its clamped norm, take inner products, weight by the mask, sum the document
  rows with those weights, divide by the count.
-/
import proofs.«402888_j21912923144748_1_alg».proof.Proof.KerStages
import proofs.«402888_j21912923144748_1_alg».proof.Proof.PoolSpec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Stages

open Idealize.ShloMosaic Idealize.ShloMosaic.ValueIdx Idealize.SL.Sem Cert.KernelIdeal Cert.KernelIdeal.Gen Cert.PoolSpec

/-! ## Layout operations of the keepdims column forms, read at an index -/

section layout
variable {α : Type}

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A single entry `[1, 1]` broadcast to `[a, b]` reads that entry everywhere. -/
private theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else c.val
    rw [if_pos rfl]

/-- A vector `[a]` cast to the column `[a, 1]` reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end layout

/-! ## A sum along the rows -/

/-- The sum over axis 1 of an `[a, b]` array reads, at `p`, the sum of row `p`. -/
private theorem rowSum_apply {a b : ℕ} (x : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ x 0x00000000#32 h hφ hacc (ix1 p) = ∑ c : Fin b, x (ix2 p c) := by
  refine (Ideal.multiReduction_add_single x 0x00000000#32 h hφ hacc (ix1 p)).trans ?_
  show ∑ c : Fin b, x (h.lift (ix1 p) c) = ∑ c : Fin b, x (ix2 p c)
  refine Finset.sum_congr rfl fun c _ => congrArg x (funext fun ax => Fin.ext ?_)
  match ax with
  | ⟨0, _⟩ => rfl
  | ⟨1, _⟩ => rfl

/-! ## Rows scaled by their clamped norms -/

/-- Dividing an `[a, b]` array by the broadcast column of its rows' norms, each clamped below by `eps`, scales row `p` to
    unit length, when the column `n` holds the rows' Euclidean norms. -/
private theorem scaled_apply {a b : ℕ} (x : FVec Ideal ⟨2, ![a, b]⟩ .f32) (n : FVec Ideal ⟨2, ![a, 1]⟩ .f32)
    (hb : (⟨2, ![a, 1]⟩ : Shape).Broadcasts ⟨2, ![a, b]⟩)
    (hn : ∀ p : Fin a, n (ix2 p (0 : Fin 1)) = Ideal.sqrt (∑ c : Fin b, x (ix2 p c) * x (ix2 p c)))
    (p : Fin a) (c : Fin b) :
    divf x (broadcastTo ⟨2, ![a, b]⟩ (maximumf n (broadcast ⟨2, ![a, 1]⟩ (Scalar.ofBits .f32 0x322BCC77#32))) hb) (ix2 p c)
      = unit (fun c : Fin b => x (ix2 p c)) c := by
  refine (divf_apply _ _ _).trans ?_
  refine congrArg (Ideal.div (x (ix2 p c))) ?_
  refine (broadcastTo_a1_ab_apply _ hb p c).trans ?_
  refine (maximumf_apply _ _ _).trans ?_
  rw [hn p]
  rfl

/-- The document rows' norms from their squares: the square root of the row sums, laid out as a column. -/
private theorem normCol_apply {a b : ℕ} (x s : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩)
    (hs : ∀ (p : Fin a) (c : Fin b), s (ix2 p c) = x (ix2 p c) * x (ix2 p c)) (p : Fin a) :
    sqrt (shapeCast ⟨2, ![a, 1]⟩ (multiReduction .add [1] ⟨1, ![a]⟩ s 0x00000000#32 h hφ hacc) hc) (ix2 p (0 : Fin 1))
      = Ideal.sqrt (∑ c : Fin b, x (ix2 p c) * x (ix2 p c)) := by
  show Ideal.sqrt (shapeCast ⟨2, ![a, 1]⟩ (multiReduction .add [1] ⟨1, ![a]⟩ s 0x00000000#32 h hφ hacc) hc (ix2 p (0 : Fin 1))) = _
  refine congrArg Ideal.sqrt ?_
  refine (shapeCast_a_a1_apply _ hc p 0).trans ?_
  refine (rowSum_apply s h hφ hacc p).trans ?_
  exact Finset.sum_congr rfl fun c _ => hs p c

/-! ## The two products read at an index -/

private theorem lhs_simMul_0 (i : S64x256.Idx) (q : dot_S64x768_S768x256_S64x256_1_0_0_1_n_n.contr.Idx) :
    (dot_S64x768_S768x256_S64x256_1_0_0_1_n_n.lhsIdx i q 0).val = (i 0).val := by
  unfold DotDims.lhsIdx
  rw [dif_neg (show ¬(0 : Fin S64x768.rank) ∈ dot_S64x768_S768x256_S64x256_1_0_0_1_n_n.lhsBatch by decide), dif_pos (show (0 : Fin S64x768.rank) ∈ dot_S64x768_S768x256_S64x256_1_0_0_1_n_n.lhsNonContracting by decide)]
  rfl
private theorem lhs_simMul_1 (i : S64x256.Idx) (q : dot_S64x768_S768x256_S64x256_1_0_0_1_n_n.contr.Idx) :
    (dot_S64x768_S768x256_S64x256_1_0_0_1_n_n.lhsIdx i q 1).val = (q ⟨0, by decide⟩).val :=
  dot_S64x768_S768x256_S64x256_1_0_0_1_n_n.lhsIdx_val_of_single rfl i q
private theorem rhs_simMul_0 (i : S64x256.Idx) (q : dot_S64x768_S768x256_S64x256_1_0_0_1_n_n.contr.Idx) :
    (dot_S64x768_S768x256_S64x256_1_0_0_1_n_n.rhsIdx i q 0).val = (q ⟨0, by decide⟩).val :=
  dot_S64x768_S768x256_S64x256_1_0_0_1_n_n.rhsIdx_val_of_single rfl i q
private theorem rhs_simMul_1 (i : S64x256.Idx) (q : dot_S64x768_S768x256_S64x256_1_0_0_1_n_n.contr.Idx) :
    (dot_S64x768_S768x256_S64x256_1_0_0_1_n_n.rhsIdx i q 1).val = (i 1).val := by
  unfold DotDims.rhsIdx
  rw [dif_neg (show ¬(1 : Fin S768x256.rank) ∈ dot_S64x768_S768x256_S64x256_1_0_0_1_n_n.rhsBatch by decide), dif_pos (show (1 : Fin S768x256.rank) ∈ dot_S64x768_S768x256_S64x256_1_0_0_1_n_n.rhsNonContracting by decide)]
  rfl

/-- The similarity product: entry `(p, c)` is the sum over the width of the products of the operands' entries. -/
private theorem simMul_apply (x : FVec Ideal S64x768 .f32) (y : FVec Ideal S768x256 .f32) (p : Fin 64) (c : Fin 256) :
    matmul dot_S64x768_S768x256_S64x256_1_0_0_1_n_n (some .fp32) x y (constant (F := Ideal) S64x256 .f32 0x00000000#32) (ix2 p c)
      = ∑ k : Fin 768, x (ix2 p k) * y (ix2 k c) := by
  refine (Ideal.matmul_constant_zero_apply dot_S64x768_S768x256_S64x256_1_0_0_1_n_n (some .fp32) x y (ix2 p c)).trans ?_
  rw [← Equiv.sum_comp (contrEquiv1 dot_S64x768_S768x256_S64x256_1_0_0_1_n_n 768 rfl rfl).symm]
  refine Finset.sum_congr rfl fun k _ => ?_
  have hk := contrEquiv1_symm_val dot_S64x768_S768x256_S64x256_1_0_0_1_n_n 768 rfl rfl k
  have el : dot_S64x768_S768x256_S64x256_1_0_0_1_n_n.lhsIdx (ix2 p c) ((contrEquiv1 dot_S64x768_S768x256_S64x256_1_0_0_1_n_n 768 rfl rfl).symm k) = ix2 p k := funext fun a => Fin.ext (by
    match a with
    | ⟨0, _⟩ => exact lhs_simMul_0 _ _
    | ⟨1, _⟩ => exact (lhs_simMul_1 _ _).trans hk)
  have er : dot_S64x768_S768x256_S64x256_1_0_0_1_n_n.rhsIdx (ix2 p c) ((contrEquiv1 dot_S64x768_S768x256_S64x256_1_0_0_1_n_n 768 rfl rfl).symm k) = ix2 k c := funext fun a => Fin.ext (by
    match a with
    | ⟨0, _⟩ => exact (rhs_simMul_0 _ _).trans hk
    | ⟨1, _⟩ => exact rhs_simMul_1 _ _)
  rw [el, er]

private theorem lhs_avgMul_0 (i : S64x768.Idx) (q : dot_S64x256_S256x768_S64x768_1_0_0_1_n_n.contr.Idx) :
    (dot_S64x256_S256x768_S64x768_1_0_0_1_n_n.lhsIdx i q 0).val = (i 0).val := by
  unfold DotDims.lhsIdx
  rw [dif_neg (show ¬(0 : Fin S64x256.rank) ∈ dot_S64x256_S256x768_S64x768_1_0_0_1_n_n.lhsBatch by decide), dif_pos (show (0 : Fin S64x256.rank) ∈ dot_S64x256_S256x768_S64x768_1_0_0_1_n_n.lhsNonContracting by decide)]
  rfl
private theorem lhs_avgMul_1 (i : S64x768.Idx) (q : dot_S64x256_S256x768_S64x768_1_0_0_1_n_n.contr.Idx) :
    (dot_S64x256_S256x768_S64x768_1_0_0_1_n_n.lhsIdx i q 1).val = (q ⟨0, by decide⟩).val :=
  dot_S64x256_S256x768_S64x768_1_0_0_1_n_n.lhsIdx_val_of_single rfl i q
private theorem rhs_avgMul_0 (i : S64x768.Idx) (q : dot_S64x256_S256x768_S64x768_1_0_0_1_n_n.contr.Idx) :
    (dot_S64x256_S256x768_S64x768_1_0_0_1_n_n.rhsIdx i q 0).val = (q ⟨0, by decide⟩).val :=
  dot_S64x256_S256x768_S64x768_1_0_0_1_n_n.rhsIdx_val_of_single rfl i q
private theorem rhs_avgMul_1 (i : S64x768.Idx) (q : dot_S64x256_S256x768_S64x768_1_0_0_1_n_n.contr.Idx) :
    (dot_S64x256_S256x768_S64x768_1_0_0_1_n_n.rhsIdx i q 1).val = (i 1).val := by
  unfold DotDims.rhsIdx
  rw [dif_neg (show ¬(1 : Fin S256x768.rank) ∈ dot_S64x256_S256x768_S64x768_1_0_0_1_n_n.rhsBatch by decide), dif_pos (show (1 : Fin S256x768.rank) ∈ dot_S64x256_S256x768_S64x768_1_0_0_1_n_n.rhsNonContracting by decide)]
  rfl

/-- The weighted sum of document rows: entry `(p, c)` is the sum over the documents of weight times row entry. -/
private theorem avgMul_apply (x : FVec Ideal S64x256 .f32) (y : FVec Ideal S256x768 .f32) (p : Fin 64) (c : Fin 768) :
    matmul dot_S64x256_S256x768_S64x768_1_0_0_1_n_n (some .fp32) x y (constant (F := Ideal) S64x768 .f32 0x00000000#32) (ix2 p c)
      = ∑ k : Fin 256, x (ix2 p k) * y (ix2 k c) := by
  refine (Ideal.matmul_constant_zero_apply dot_S64x256_S256x768_S64x768_1_0_0_1_n_n (some .fp32) x y (ix2 p c)).trans ?_
  rw [← Equiv.sum_comp (contrEquiv1 dot_S64x256_S256x768_S64x768_1_0_0_1_n_n 256 rfl rfl).symm]
  refine Finset.sum_congr rfl fun k _ => ?_
  have hk := contrEquiv1_symm_val dot_S64x256_S256x768_S64x768_1_0_0_1_n_n 256 rfl rfl k
  have el : dot_S64x256_S256x768_S64x768_1_0_0_1_n_n.lhsIdx (ix2 p c) ((contrEquiv1 dot_S64x256_S256x768_S64x768_1_0_0_1_n_n 256 rfl rfl).symm k) = ix2 p k := funext fun a => Fin.ext (by
    match a with
    | ⟨0, _⟩ => exact lhs_avgMul_0 _ _
    | ⟨1, _⟩ => exact (lhs_avgMul_1 _ _).trans hk)
  have er : dot_S64x256_S256x768_S64x768_1_0_0_1_n_n.rhsIdx (ix2 p c) ((contrEquiv1 dot_S64x256_S256x768_S64x768_1_0_0_1_n_n 256 rfl rfl).symm k) = ix2 k c := funext fun a => Fin.ext (by
    match a with
    | ⟨0, _⟩ => exact (rhs_avgMul_0 _ _).trans hk
    | ⟨1, _⟩ => exact rhs_avgMul_1 _ _)
  rw [el, er]

theorem perQuery_apply (v13 : FVec Ideal S1x256 .f32) (v17 : FVec Ideal S1x1 .f32) (v35 : FVec Ideal S64x768 .f32)
    (v36 : FVec Ideal S256x768 .f32) (v40 : FVec Ideal S64x1 .f32) (v41 : FVec Ideal S256x768 .f32)
    (h40 : ∀ q : Fin 64, v40 (ix2 q 0) = Ideal.sqrt (∑ h : Fin 768, v35 (ix2 q h) * v35 (ix2 q h)))
    (h41 : ∀ (d : Fin 256) (h : Fin 768), v41 (ix2 d h) = v36 (ix2 d h) * v36 (ix2 d h))
    (h17 : v17 (ix2 0 0) = len (fun d : Fin 256 => v13 (ix2 0 d)))
    (q : Fin 64) (h : Fin 768) :
    perQuery (F := Ideal) v13 v17 v35 v36 v40 v41 (ix2 q h)
      = pqd (fun (q : Fin 64) (h : Fin 768) => v35 (ix2 q h)) (fun (d : Fin 256) (h : Fin 768) => v36 (ix2 d h))
          (fun d : Fin 256 => v13 (ix2 0 d)) q h := by
  unfold perQuery
  dsimp only
  refine (divf_apply _ _ _).trans ?_
  unfold pqd
  refine congrArg₂ Ideal.div ?_ ((broadcastTo_11_ab_apply v17 _ q h).trans h17)
  -- the weighted sum of document rows
  refine (avgMul_apply _ v36 q h).trans ?_
  refine Finset.sum_congr rfl fun d _ => ?_
  refine congrArg (· * v36 (ix2 d h)) ?_
  -- the weight: similarity times the document mask
  refine (mulf_apply _ _ _).trans ?_
  refine congrArg₂ (· * ·) ?_ (broadcastTo_1b_ab_apply v13 _ q d)
  -- the similarity: the inner product of the scaled rows
  refine (simMul_apply _ _ q d).trans ?_
  unfold sim
  refine Finset.sum_congr rfl fun k _ => ?_
  refine congrArg₂ (· * ·) (scaled_apply v35 v40 _ h40 q k) ?_
  refine (transpose_ix2_apply _ _ k d).trans ?_
  exact scaled_apply v36 _ _ (normCol_apply v36 v41 _ _ _ _ h41) d k

end Cert.KernelIdeal.Stages

end
-- ==== Proof.KerHead.lean ====
/-
  `head` read at an index: from the per-query averages `p`, the query rows `v35`, the query mask `v24` and count
  `v15`, and the two layers' weights, entry `(0, c)` is the specification's `pre_out`: the masked averages over the
  query tokens, laid side by side, through the first layer and the ramp, times the second layer's column `c`.
-/
import proofs.«402888_j21912923144748_1_alg».proof.Proof.KerStages
import proofs.«402888_j21912923144748_1_alg».proof.Proof.PoolSpec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Stages

open Idealize.ShloMosaic Idealize.ShloMosaic.ValueIdx Idealize.SL.Sem Cert.KernelIdeal Cert.KernelIdeal.Gen Cert.PoolSpec

/-! ## The two layout steps of a masked average: a column spread over the lanes, a scalar spread over a row -/

/-- A `[64, 1]` column spread over 768 lanes reads, at `(q, h)`, the column at `q`. -/
theorem spreadCol_apply (v : FVec Ideal S64x1 .f32) (q : Fin 64) (h : Fin 768) :
    broadcastTo S64x768 v broadcasts_S64x1_S64x768 (ix2 q h) = v (ix2 q 0) :=
  broadcastTo_apply v broadcasts_S64x1_S64x768 (ix2 q h) (ix2 q 0) fun a => match a with
    | ⟨0, _⟩ => by show q.val = if (64 : Nat) = 1 then 0 else q.val; rw [if_neg (by decide)]
    | ⟨1, _⟩ => by show 0 = if (1 : Nat) = 1 then 0 else h.val; rw [if_pos rfl]

/-- A `[1, 1]` scalar spread over a row of 768 lanes reads the scalar everywhere. -/
theorem spreadOne_apply (v : FVec Ideal S1x1 .f32) (h : Fin 768) :
    broadcastTo S1x768 v broadcasts_S1x1_S1x768 (ix2 0 h) = v (ix2 0 0) :=
  broadcastTo_apply v broadcasts_S1x1_S1x768 (ix2 0 h) (ix2 0 0) fun a => match a with
    | ⟨0, _⟩ => by show 0 = if (1 : Nat) = 1 then 0 else 0; rw [if_pos rfl]
    | ⟨1, _⟩ => by show 0 = if (1 : Nat) = 1 then 0 else h.val; rw [if_pos rfl]

/-- The sum over the 64 query tokens, lane by lane. -/
theorem sumTokens_apply (src : FVec Ideal S64x768 .f32) (h : Fin 768) :
    multiReduction (F := Ideal) .add [0] S768 src 0x00000000#32 reduces_S64x768_S768 (.inl rfl) rfl (ix1 h)
      = ∑ q : Fin 64, src (ix2 q h) := by
  refine (Ideal.multiReduction_add_single src 0x00000000#32 reduces_S64x768_S768 (.inl rfl) rfl (ix1 h)).trans ?_
  refine Finset.sum_congr rfl fun q _ => congrArg src ?_
  funext a
  match a with
  | ⟨0, _⟩ => rfl
  | ⟨1, _⟩ => rfl

/-- A masked average over the query tokens: the rows times the mask column, summed over the tokens, over the count. -/
theorem maskedAvg_apply (v15 : FVec Ideal S1x1 .f32) (v24 : FVec Ideal S64x1 .f32) (x : FVec Ideal S64x768 .f32)
    (h15 : v15 (ix2 0 0) = len (fun q : Fin 64 => v24 (ix2 q 0))) (h : Fin 768) :
    divf (shapeCast S1x768 (multiReduction (F := Ideal) .add [0] S768 (mulf x (broadcastTo S64x768 v24 broadcasts_S64x1_S64x768))
          0x00000000#32 reduces_S64x768_S768 (.inl rfl) rfl) shapeCasts_S768_S1x768)
        (broadcastTo S1x768 v15 broadcasts_S1x1_S1x768) (ix2 0 h)
      = Ideal.div (∑ q : Fin 64, x (ix2 q h) * v24 (ix2 q 0)) (len (fun q : Fin 64 => v24 (ix2 q 0))) := by
  rw [divf_apply, shapeCast_a_1a_apply, sumTokens_apply, spreadOne_apply, h15]
  refine congrArg (fun s => Ideal.div s _) (Finset.sum_congr rfl fun q _ => ?_)
  rw [mulf_apply, spreadCol_apply]

/-! ## The two averages side by side -/

/-- Two rows of 768 lanes laid side by side read, at lane `k`, the first below 768 and the second from 768 on. -/
theorem sideBySide_apply (a b : FVec Ideal S1x768 .f32) (k : Fin 1536) :
    concatenate S1x1536 1 [⟨S1x768, a⟩, ⟨S1x768, b⟩] concatenates_S1x768_S1x768_S1x1536_d1 (ix2 0 k)
      = cat (fun h : Fin 768 => a (ix2 0 h)) (fun h : Fin 768 => b (ix2 0 h)) k := by
  unfold cat
  split
  · next hk =>
    exact concatenate_pair_apply_left 1 a b concatenates_S1x768_S1x768_S1x1536_d1 (ix2 0 k) rfl (ix2 0 ⟨k.val, hk⟩)
      (fun c => by
        match c with
        | ⟨0, _⟩ => rfl
        | ⟨1, _⟩ => rfl)
  · next hk =>
    exact concatenate_pair_apply_right 1 a b concatenates_S1x768_S1x768_S1x1536_d1 (ix2 0 k) rfl rfl
      (ix2 0 ⟨k.val - 768, by omega⟩)
      (fun c hc => by
        match c with
        | ⟨0, _⟩ => rfl
        | ⟨1, _⟩ => exact absurd rfl hc)
      (by show (k.val - 768) + 768 = k.val; omega)

/-! ## The first layer's product -/

theorem lhsA_0 (i : S1x768.Idx) (q : dot_S1x1536_S1536x768_S1x768_1_0_0_1_n_n.contr.Idx) :
    (dot_S1x1536_S1536x768_S1x768_1_0_0_1_n_n.lhsIdx i q 0).val = (i 0).val := by
  unfold DotDims.lhsIdx
  rw [dif_neg (show ¬(0 : Fin S1x1536.rank) ∈ dot_S1x1536_S1536x768_S1x768_1_0_0_1_n_n.lhsBatch by decide), dif_pos (show (0 : Fin S1x1536.rank) ∈ dot_S1x1536_S1536x768_S1x768_1_0_0_1_n_n.lhsNonContracting by decide)]
  rfl
theorem lhsA_1 (i : S1x768.Idx) (q : dot_S1x1536_S1536x768_S1x768_1_0_0_1_n_n.contr.Idx) :
    (dot_S1x1536_S1536x768_S1x768_1_0_0_1_n_n.lhsIdx i q 1).val = (q ⟨0, by decide⟩).val :=
  dot_S1x1536_S1536x768_S1x768_1_0_0_1_n_n.lhsIdx_val_of_single rfl i q
theorem rhsA_0 (i : S1x768.Idx) (q : dot_S1x1536_S1536x768_S1x768_1_0_0_1_n_n.contr.Idx) :
    (dot_S1x1536_S1536x768_S1x768_1_0_0_1_n_n.rhsIdx i q 0).val = (q ⟨0, by decide⟩).val :=
  dot_S1x1536_S1536x768_S1x768_1_0_0_1_n_n.rhsIdx_val_of_single rfl i q
theorem rhsA_1 (i : S1x768.Idx) (q : dot_S1x1536_S1536x768_S1x768_1_0_0_1_n_n.contr.Idx) :
    (dot_S1x1536_S1536x768_S1x768_1_0_0_1_n_n.rhsIdx i q 1).val = (i 1).val := by
  unfold DotDims.rhsIdx
  rw [dif_neg (show ¬(1 : Fin S1536x768.rank) ∈ dot_S1x1536_S1536x768_S1x768_1_0_0_1_n_n.rhsBatch by decide), dif_pos (show (1 : Fin S1536x768.rank) ∈ dot_S1x1536_S1536x768_S1x768_1_0_0_1_n_n.rhsNonContracting by decide)]
  rfl

/-- The first layer's product into the zero row: at lane `j`, the sum over the 1536 inputs of input times weight. -/
theorem layer1Prod_apply (y : FVec Ideal S1x1536 .f32) (w : FVec Ideal S1536x768 .f32) (j : Fin 768) :
    matmul (F := Ideal) dot_S1x1536_S1536x768_S1x768_1_0_0_1_n_n (some .fp32) y w (constant S1x768 .f32 0x00000000#32) (ix2 0 j)
      = ∑ k : Fin 1536, y (ix2 0 k) * w (ix2 k j) := by
  simp only [matmul]
  rw [Ideal.matmul_constant_zero_apply, ← Equiv.sum_comp (contrEquiv1 dot_S1x1536_S1536x768_S1x768_1_0_0_1_n_n 1536 rfl rfl).symm]
  refine Finset.sum_congr rfl fun k _ => ?_
  have hk := contrEquiv1_symm_val dot_S1x1536_S1536x768_S1x768_1_0_0_1_n_n 1536 rfl rfl k
  have el : dot_S1x1536_S1536x768_S1x768_1_0_0_1_n_n.lhsIdx (ix2 0 j) ((contrEquiv1 dot_S1x1536_S1536x768_S1x768_1_0_0_1_n_n 1536 rfl rfl).symm k) = ix2 0 k := funext fun a => Fin.ext (by
    match a with
    | ⟨0, _⟩ => exact lhsA_0 _ _
    | ⟨1, _⟩ => exact (lhsA_1 _ _).trans hk)
  have er : dot_S1x1536_S1536x768_S1x768_1_0_0_1_n_n.rhsIdx (ix2 0 j) ((contrEquiv1 dot_S1x1536_S1536x768_S1x768_1_0_0_1_n_n 1536 rfl rfl).symm k) = ix2 k j := funext fun a => Fin.ext (by
    match a with
    | ⟨0, _⟩ => exact (rhsA_0 _ _).trans hk
    | ⟨1, _⟩ => exact rhsA_1 _ _)
  rw [el, er]

/-- The hidden layer: the product, plus the bias row, through the ramp. -/
theorem hidden_apply (y : FVec Ideal S1x1536 .f32) (w : FVec Ideal S1536x768 .f32) (b : FVec Ideal S1x768 .f32) (j : Fin 768) :
    maximumf (addf (matmul (F := Ideal) dot_S1x1536_S1536x768_S1x768_1_0_0_1_n_n (some .fp32) y w (constant S1x768 .f32 0x00000000#32))
          (shapeCast S1x768 b shapeCasts_S1x768_S1x768))
        (broadcast S1x768 (Scalar.ofBits .f32 0x00000000#32)) (ix2 0 j)
      = max ((∑ k : Fin 1536, y (ix2 0 k) * w (ix2 k j)) + b (ix2 0 j)) 0 := by
  rw [maximumf_apply, addf_apply, layer1Prod_apply, shapeCast_self, broadcast_apply]
  show max _ (Ideal.ofBits .f32 0x00000000#32) = _
  rw [Ideal.ofBits_zero_f32]

/-! ## The second layer's product -/

theorem lhsB_0 (i : S1x2.Idx) (q : dot_S1x768_S768x2_S1x2_1_0_0_1_n_n.contr.Idx) :
    (dot_S1x768_S768x2_S1x2_1_0_0_1_n_n.lhsIdx i q 0).val = (i 0).val := by
  unfold DotDims.lhsIdx
  rw [dif_neg (show ¬(0 : Fin S1x768.rank) ∈ dot_S1x768_S768x2_S1x2_1_0_0_1_n_n.lhsBatch by decide), dif_pos (show (0 : Fin S1x768.rank) ∈ dot_S1x768_S768x2_S1x2_1_0_0_1_n_n.lhsNonContracting by decide)]
  rfl
theorem lhsB_1 (i : S1x2.Idx) (q : dot_S1x768_S768x2_S1x2_1_0_0_1_n_n.contr.Idx) :
    (dot_S1x768_S768x2_S1x2_1_0_0_1_n_n.lhsIdx i q 1).val = (q ⟨0, by decide⟩).val :=
  dot_S1x768_S768x2_S1x2_1_0_0_1_n_n.lhsIdx_val_of_single rfl i q
theorem rhsB_0 (i : S1x2.Idx) (q : dot_S1x768_S768x2_S1x2_1_0_0_1_n_n.contr.Idx) :
    (dot_S1x768_S768x2_S1x2_1_0_0_1_n_n.rhsIdx i q 0).val = (q ⟨0, by decide⟩).val :=
  dot_S1x768_S768x2_S1x2_1_0_0_1_n_n.rhsIdx_val_of_single rfl i q
theorem rhsB_1 (i : S1x2.Idx) (q : dot_S1x768_S768x2_S1x2_1_0_0_1_n_n.contr.Idx) :
    (dot_S1x768_S768x2_S1x2_1_0_0_1_n_n.rhsIdx i q 1).val = (i 1).val := by
  unfold DotDims.rhsIdx
  rw [dif_neg (show ¬(1 : Fin S768x2.rank) ∈ dot_S1x768_S768x2_S1x2_1_0_0_1_n_n.rhsBatch by decide), dif_pos (show (1 : Fin S768x2.rank) ∈ dot_S1x768_S768x2_S1x2_1_0_0_1_n_n.rhsNonContracting by decide)]
  rfl

/-- The second layer's product into the zero row: at column `c`, the sum over the 768 hidden lanes of lane times weight. -/
theorem layer2Prod_apply (z : FVec Ideal S1x768 .f32) (w : FVec Ideal S768x2 .f32) (c : Fin 2) :
    matmul (F := Ideal) dot_S1x768_S768x2_S1x2_1_0_0_1_n_n (some .fp32) z w (constant S1x2 .f32 0x00000000#32) (ix2 0 c)
      = ∑ j : Fin 768, z (ix2 0 j) * w (ix2 j c) := by
  simp only [matmul]
  rw [Ideal.matmul_constant_zero_apply, ← Equiv.sum_comp (contrEquiv1 dot_S1x768_S768x2_S1x2_1_0_0_1_n_n 768 rfl rfl).symm]
  refine Finset.sum_congr rfl fun k _ => ?_
  have hk := contrEquiv1_symm_val dot_S1x768_S768x2_S1x2_1_0_0_1_n_n 768 rfl rfl k
  have el : dot_S1x768_S768x2_S1x2_1_0_0_1_n_n.lhsIdx (ix2 0 c) ((contrEquiv1 dot_S1x768_S768x2_S1x2_1_0_0_1_n_n 768 rfl rfl).symm k) = ix2 0 k := funext fun a => Fin.ext (by
    match a with
    | ⟨0, _⟩ => exact lhsB_0 _ _
    | ⟨1, _⟩ => exact (lhsB_1 _ _).trans hk)
  have er : dot_S1x768_S768x2_S1x2_1_0_0_1_n_n.rhsIdx (ix2 0 c) ((contrEquiv1 dot_S1x768_S768x2_S1x2_1_0_0_1_n_n 768 rfl rfl).symm k) = ix2 k c := funext fun a => Fin.ext (by
    match a with
    | ⟨0, _⟩ => exact (rhsB_0 _ _).trans hk
    | ⟨1, _⟩ => exact rhsB_1 _ _)
  rw [el, er]

/-! ## The head -/

theorem head_apply (v15 : FVec Ideal S1x1 .f32) (v24 : FVec Ideal S64x1 .f32) (v35 : FVec Ideal S64x768 .f32)
    (p : FVec Ideal S64x768 .f32) (v73 : Vec Ideal S1536x768 .f32) (v75 : Vec Ideal S1x768 .f32) (v80 : Vec Ideal S768x2 .f32)
    (h15 : v15 (ix2 0 0) = len (fun q : Fin 64 => v24 (ix2 q 0)))
    (c : Fin 2) :
    head (F := Ideal) v15 v24 v35 p v73 v75 v80 (ix2 0 c)
      = pre_out (qavg (fun (q : Fin 64) (h : Fin 768) => v35 (ix2 q h)) (fun q : Fin 64 => v24 (ix2 q 0)))
          (fun h : Fin 768 => Ideal.div (∑ q : Fin 64, p (ix2 q h) * v24 (ix2 q 0)) (len (fun q : Fin 64 => v24 (ix2 q 0))))
          (fun (k : Fin 1536) (j : Fin 768) => v73 (ix2 k j)) (fun j : Fin 768 => v75 (ix2 0 j))
          (fun (j : Fin 768) (c : Fin 2) => v80 (ix2 j c)) c := by
  unfold head
  dsimp only
  refine (layer2Prod_apply _ v80 c).trans ?_
  unfold pre_out
  refine Finset.sum_congr rfl fun j _ => congrArg (fun t => t * v80 (ix2 j c)) ?_
  refine (hidden_apply _ v73 v75 j).trans ?_
  unfold hid
  refine congrArg (fun s => max (s + v75 (ix2 0 j)) 0) (Finset.sum_congr rfl fun k _ => congrArg (fun t => t * v73 (ix2 k j)) ?_)
  refine (sideBySide_apply _ _ k).trans ?_
  congr 1
  · funext h
    exact maskedAvg_apply v15 v24 v35 h15 h
  · funext h
    exact maskedAvg_apply v15 v24 p h15 h

end Cert.KernelIdeal.Stages

end
-- ==== Proof.KerValue.lean ====
/-
  What the kernel body leaves in the output block: from one batch's blocks, entry `(0, 0, c)` is the specification's
  logit `c` of the rows gathered by comparing index words with positions.
-/
import proofs.«402888_j21912923144748_1_alg».proof.Proof.Gen.KernelIdeal.Frame
import proofs.«402888_j21912923144748_1_alg».proof.Proof.KerRows
import proofs.«402888_j21912923144748_1_alg».proof.Proof.KerPqd
import proofs.«402888_j21912923144748_1_alg».proof.Proof.KerHead

set_option synthInstance.maxSize 4096

noncomputable section

open scoped BigOperators

namespace Cert.KernelIdeal.KerValue

open Idealize.ShloMosaic Idealize.ShloMosaic.ValueIdx Idealize.SL.Sem Cert.KernelIdeal Cert.KernelIdeal.Gen Cert.PoolSpec

theorem hz3 : (![0, 0, 0] : Fin 3 → Nat) = fun _ => 0 := funext fun a => by fin_cases a <;> rfl
theorem hz2 : (![0, 0] : Fin 2 → Nat) = fun _ => 0 := funext fun a => by fin_cases a <;> rfl

theorem out_apply (x0 : Vec Ideal S1x512x768 .f32) (x1 : Vec Ideal S1x1x64 .i32) (x2 : Vec Ideal S1x1x256 .i32)
    (x3 : Vec Ideal S1536x768 .f32) (x4 : Vec Ideal S1x768 .f32) (x5 : Vec Ideal S768x2 .f32) (x6 : Vec Ideal S1x2 .f32) (c : Fin 2) :
    out0_7 (F := Ideal) x0 x1 x2 x3 x4 x5 x6 (ix3 0 0 c)
      = logit (fun q : Fin 64 => rowK (fun s h => x0 (ix3 0 s h)) (x1 (ix3 0 0 q))) (fun q : Fin 64 => mask (x1 (ix3 0 0 q)))
          (fun d : Fin 256 => rowK (fun s h => x0 (ix3 0 s h)) (x2 (ix3 0 0 d))) (fun d : Fin 256 => mask (x2 (ix3 0 0 d)))
          (fun (k : Fin 1536) (j : Fin 768) => x3 (ix2 k j)) (fun j : Fin 768 => x4 (ix2 0 j))
          (fun (j : Fin 768) (c : Fin 2) => x5 (ix2 j c)) (fun c : Fin 2 => x6 (ix2 0 c)) c := by
  unfold out0_7
  rw [View.canon_unit_zero hz3]
  simp only [View.ld_unit_zero (S := S1x512x768) hz3, View.ld_unit_zero (S := S1x1x64) hz3,
    View.ld_unit_zero (S := S1x1x256) hz3, View.ld_unit_zero (S := S1536x768) hz2, View.ld_unit_zero (S := S1x768) hz2,
    View.ld_unit_zero (S := S768x2) hz2, View.ld_unit_zero (S := S1x2) hz2]
  unfold k0_pay1 k0_pay15
  dsimp only
  rw [shapeCast_self]
  refine (shapeCast_ab_1ab_apply _ _ 0 0 c).trans ?_
  rw [ValueIdx.addf_apply, Stages.pay14_eq]
  have h15 : k0_pay6 (F := Ideal) x1 (ix2 0 0) = len (fun q : Fin 64 => k0_pay9 (F := Ideal) x1 (ix2 q 0)) := by
    rw [Rows.pay6_apply]; congr 1; funext q; exact (Rows.pay9_apply x1 q).symm
  have h17 : k0_pay7 (F := Ideal) x2 (ix2 0 0) = len (fun d : Fin 256 => k0_pay5 (F := Ideal) x2 (ix2 0 d)) := by
    rw [Rows.pay7_apply]; congr 1; funext d; exact (Rows.pay5_apply x2 d).symm
  rw [Stages.head_apply _ _ _ _ _ _ _ h15 c]
  have ePQ : ∀ (q : Fin 64) (h : Fin 768),
      Stages.perQuery (F := Ideal) (k0_pay5 x2) (k0_pay7 x2) (k0_pay10 x0 x1) (k0_pay11 x0 x2) (k0_pay12 x0 x1) (k0_pay13 x0 x2) (ix2 q h)
        = pqd (fun (q : Fin 64) (h : Fin 768) => k0_pay10 (F := Ideal) x0 x1 (ix2 q h))
            (fun (d : Fin 256) (h : Fin 768) => k0_pay11 (F := Ideal) x0 x2 (ix2 d h))
            (fun d : Fin 256 => k0_pay5 (F := Ideal) x2 (ix2 0 d)) q h :=
    fun q h => Stages.perQuery_apply _ _ _ _ _ _ (Rows.pay12_apply x0 x1) (Rows.pay13_apply x0 x2) h17 q h
  simp only [ePQ]
  have e10 : (fun (q : Fin 64) (h : Fin 768) => k0_pay10 (F := Ideal) x0 x1 (ix2 q h))
      = fun q => rowK (fun s h => x0 (ix3 0 s h)) (x1 (ix3 0 0 q)) :=
    funext fun q => funext fun h => Rows.pay10_apply x0 x1 q h
  have e11 : (fun (d : Fin 256) (h : Fin 768) => k0_pay11 (F := Ideal) x0 x2 (ix2 d h))
      = fun d => rowK (fun s h => x0 (ix3 0 s h)) (x2 (ix3 0 0 d)) :=
    funext fun d => funext fun h => Rows.pay11_apply x0 x2 d h
  have e9 : (fun q : Fin 64 => k0_pay9 (F := Ideal) x1 (ix2 q 0)) = fun q => mask (x1 (ix3 0 0 q)) :=
    funext fun q => Rows.pay9_apply x1 q
  have e5 : (fun d : Fin 256 => k0_pay5 (F := Ideal) x2 (ix2 0 d)) = fun d => mask (x2 (ix3 0 0 d)) :=
    funext fun d => Rows.pay5_apply x2 d
  rw [e10, e11, e9, e5]
  simp only [Rows.pay9_apply]
  delta logit out qbd
  rfl

end Cert.KernelIdeal.KerValue

end
-- ==== Proof.KerRun.lean ====
/-
  The kernel's run read as values. The grid has one point per batch; point `t` stages batch `t`'s token table and its
  two index rows, and the two layers' weights whole, and writes back the two logits of batch `t`. So the output array
  `[8, 1, 2]` ends, at `(b, 0, c)`, at the specification's logit `c` of batch `b`'s rows gathered by comparing index words
  with positions: each point's block is that function read through the block, and the eight blocks cover the array.
-/
import proofs.«402888_j21912923144748_1_alg».proof.Proof.Gen.KernelIdeal.Frame
import proofs.«402888_j21912923144748_1_alg».proof.Proof.KerValue
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KerRun

open Cert.KernelIdeal Cert.KernelIdeal.Gen Cert.PoolSpec

variable (m : (ℓ : Loc nD τ sig) → Buf (Elt Ideal) ℓ) (ρ : Dev nD → PrngReg)

/-- Batch `b`'s logit `c` from the seven arrays in the layouts the region stages them in. -/
def Gc (a0 : S8x512x768.Idx → EReal) (a1 : S8x1x64.Idx → BitVec 32) (a2 : S8x1x256.Idx → BitVec 32)
    (a3 : S1536x768.Idx → EReal) (a4 : S1x768.Idx → EReal) (a5 : S768x2.Idx → EReal) (a6 : S1x2.Idx → EReal)
    (b : Fin 8) (c : Fin 2) : EReal :=
  logit (fun q : Fin 64 => rowK (fun s h => a0 (ix3 b s h)) (a1 (ix3 b 0 q))) (fun q : Fin 64 => mask (a1 (ix3 b 0 q)))
    (fun d : Fin 256 => rowK (fun s h => a0 (ix3 b s h)) (a2 (ix3 b 0 d))) (fun d : Fin 256 => mask (a2 (ix3 b 0 d)))
    (fun (k : Fin 1536) (j : Fin 768) => a3 (ix2 k j)) (fun j : Fin 768 => a4 (ix2 0 j))
    (fun (j : Fin 768) (c : Fin 2) => a5 (ix2 j c)) (fun c : Fin 2 => a6 (ix2 0 c)) c

/-- The output array `[8, 1, 2]` as one function of the seven arrays. -/
def Garr (a0 : S8x512x768.Idx → EReal) (a1 : S8x1x64.Idx → BitVec 32) (a2 : S8x1x256.Idx → BitVec 32)
    (a3 : S1536x768.Idx → EReal) (a4 : S1x768.Idx → EReal) (a5 : S768x2.Idx → EReal) (a6 : S1x2.Idx → EReal) :
    S8x1x2.Idx → EReal :=
  fun i => Gc a0 a1 a2 a3 a4 a5 a6 ⟨(i 0).val, (i 0).isLt⟩ ⟨(i 2).val, (i 2).isLt⟩

/-- The batch a grid point works on. -/
def bOf (t : Fin cfg0.N) : Fin 8 := ⟨t.val, Nat.lt_of_lt_of_eq t.isLt (show cfg0.N = 8 from N_0)⟩

/-- The printed index maps, decided once over the grid: the batch-blocked windows sit at block `(t, 0, 0)`, the whole
    ones at block `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

/-! ## Each window's block is the array's rows of the point's batch -/

theorem iblk0_apply (c : Dev nD) (t : Fin cfg0.N) (s : Fin 512) (h : Fin 768) :
    (iblk m c 0 t : Vec Ideal S1x512x768 .f32) (ix3 0 s h) = (V m c main_arg0 : S8x512x768.Idx → EReal) (ix3 (bOf t) s h) := by
  obtain ⟨⟨e0, e1, e2⟩, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = t.val; rw [e0]; omega
  | ⟨1, _⟩ => show win0_0.index t (1 : Fin 3) * 512 + 1 * s.val = s.val; rw [e1]; omega
  | ⟨2, _⟩ => show win0_0.index t (2 : Fin 3) * 768 + 1 * h.val = h.val; rw [e2]; omega

theorem iblk1_apply (c : Dev nD) (t : Fin cfg0.N) (q : Fin 64) :
    (iblk m c 1 t : Vec Ideal S1x1x64 .i32) (ix3 0 0 q) = (V m c main_v0 : S8x1x64.Idx → BitVec 32) (ix3 (bOf t) 0 q) := by
  obtain ⟨-, ⟨e0, e1, e2⟩, -⟩ := idx_facts t
  unfold iblk
  rw [View.read_apply]
  show V m c main_v0 _ = V m c main_v0 _
  congr 1
  funext a; apply Fin.ext
  match a with
  | ⟨0, _⟩ => show win0_1.index t (0 : Fin 3) * 1 + 1 * 0 = t.val; rw [e0]; omega
  | ⟨1, _⟩ => show win0_1.index t (1 : Fin 3) * 1 + 1 * 0 = 0; rw [e1]
  | ⟨2, _⟩ => show win0_1.index t (2 : Fin 3) * 64 + 1 * q.val = q.val; rw [e2]; omega

theorem iblk2_apply (c : Dev nD) (t : Fin cfg0.N) (d : Fin 256) :
    (iblk m c 2 t : Vec Ideal S1x1x256 .i32) (ix3 0 0 d) = (V m c main_v1 : S8x1x256.Idx → BitVec 32) (ix3 (bOf t) 0 d) := by
  obtain ⟨-, -, ⟨e0, e1, e2⟩, -⟩ := idx_facts t
  unfold iblk
  rw [View.read_apply]
  show V m c main_v1 _ = V m c main_v1 _
  congr 1
  funext a; apply Fin.ext
  match a with
  | ⟨0, _⟩ => show win0_2.index t (0 : Fin 3) * 1 + 1 * 0 = t.val; rw [e0]; omega
  | ⟨1, _⟩ => show win0_2.index t (1 : Fin 3) * 1 + 1 * 0 = 0; rw [e1]
  | ⟨2, _⟩ => show win0_2.index t (2 : Fin 3) * 256 + 1 * d.val = d.val; rw [e2]; omega

theorem iblk3_apply (c : Dev nD) (t : Fin cfg0.N) (k : Fin 1536) (j : Fin 768) :
    (iblk m c 3 t : Vec Ideal S1536x768 .f32) (ix2 k j) = (V m c main_arg3 : S1536x768.Idx → EReal) (ix2 k j) := by
  obtain ⟨-, -, -, ⟨e0, e1⟩, -⟩ := idx_facts t
  unfold iblk
  rw [View.read_apply]
  show V m c main_arg3 _ = V m c main_arg3 _
  congr 1
  funext a; apply Fin.ext
  match a with
  | ⟨0, _⟩ => show win0_3.index t (0 : Fin 2) * 1536 + 1 * k.val = k.val; rw [e0]; omega
  | ⟨1, _⟩ => show win0_3.index t (1 : Fin 2) * 768 + 1 * j.val = j.val; rw [e1]; omega

theorem iblk4_apply (c : Dev nD) (t : Fin cfg0.N) (j : Fin 768) :
    (iblk m c 4 t : Vec Ideal S1x768 .f32) (ix2 0 j) = (V m c main_v2 : S1x768.Idx → EReal) (ix2 0 j) := by
  obtain ⟨-, -, -, -, ⟨e0, e1⟩, -⟩ := idx_facts t
  unfold iblk
  rw [View.read_apply]
  show V m c main_v2 _ = V m c main_v2 _
  congr 1
  funext a; apply Fin.ext
  match a with
  | ⟨0, _⟩ => show win0_4.index t (0 : Fin 2) * 1 + 1 * 0 = 0; rw [e0]
  | ⟨1, _⟩ => show win0_4.index t (1 : Fin 2) * 768 + 1 * j.val = j.val; rw [e1]; omega

theorem iblk5_apply (c : Dev nD) (t : Fin cfg0.N) (j : Fin 768) (c' : Fin 2) :
    (iblk m c 5 t : Vec Ideal S768x2 .f32) (ix2 j c') = (V m c main_arg5 : S768x2.Idx → EReal) (ix2 j c') := by
  obtain ⟨-, -, -, -, -, ⟨e0, e1⟩, -⟩ := idx_facts t
  unfold iblk
  rw [View.read_apply]
  show V m c main_arg5 _ = V m c main_arg5 _
  congr 1
  funext a; apply Fin.ext
  match a with
  | ⟨0, _⟩ => show win0_5.index t (0 : Fin 2) * 768 + 1 * j.val = j.val; rw [e0]; omega
  | ⟨1, _⟩ => show win0_5.index t (1 : Fin 2) * 2 + 1 * c'.val = c'.val; rw [e1]; omega

theorem iblk6_apply (c : Dev nD) (t : Fin cfg0.N) (c' : Fin 2) :
    (iblk m c 6 t : Vec Ideal S1x2 .f32) (ix2 0 c') = (V m c main_v3 : S1x2.Idx → EReal) (ix2 0 c') := by
  obtain ⟨-, -, -, -, -, -, ⟨e0, e1⟩, -⟩ := idx_facts t
  unfold iblk
  rw [View.read_apply]
  show V m c main_v3 _ = V m c main_v3 _
  congr 1
  funext a; apply Fin.ext
  match a with
  | ⟨0, _⟩ => show win0_6.index t (0 : Fin 2) * 1 + 1 * 0 = 0; rw [e0]
  | ⟨1, _⟩ => show win0_6.index t (1 : Fin 2) * 2 + 1 * c'.val = c'.val; rw [e1]; omega

/-! ## What a point writes back, and the array after the run -/

/-- The body's output block at point `t` is batch `bOf t`'s two logits. -/
theorem out_block (c : Dev nD) (t : Fin cfg0.N) (c' : Fin 2) :
    out0_7 (F := Ideal) (iblk m c 0 t) (iblk m c 1 t) (iblk m c 2 t) (iblk m c 3 t) (iblk m c 4 t) (iblk m c 5 t) (iblk m c 6 t) (ix3 0 0 c')
      = Gc (V m c main_arg0) (V m c main_v0) (V m c main_v1) (V m c main_arg3) (V m c main_v2) (V m c main_arg5) (V m c main_v3) (bOf t) c' := by
  refine (KerValue.out_apply (iblk m c 0 t) (iblk m c 1 t) (iblk m c 2 t) (iblk m c 3 t) (iblk m c 4 t) (iblk m c 5 t) (iblk m c 6 t) c').trans ?_
  unfold Gc
  simp only [iblk0_apply m c t, iblk1_apply m c t, iblk2_apply m c t, iblk3_apply m c t, iblk4_apply m c t, iblk5_apply m c t, iblk6_apply m c t]

/-- The seven arrays as the region finds them, in one name. -/
abbrev GV (c : Dev nD) : S8x1x2.Idx → EReal :=
  Garr (V m c main_arg0) (V m c main_v0) (V m c main_v1) (V m c main_arg3) (V m c main_v2) (V m c main_arg5) (V m c main_v3)

/-- What point `t` writes back is block `t` of that one function. -/
theorem flushed_eq (c : Dev nD) (t : Fin cfg0.N) :
    (dats m 0 c).flushed 7 t = ((cfg0.win 7).blk t).view.read (Elt Ideal) (GV m c) := by
  show (cfg0.win 7).cut (grid0.coords t) ((dats m 0 c).after 7 t) = _
  rw [after0_7]
  funext y
  show out0_7 (F := Ideal) (iblk m c 0 t) (iblk m c 1 t) (iblk m c 2 t) (iblk m c 3 t) (iblk m c 4 t) (iblk m c 5 t) (iblk m c 6 t) y
    = GV m c (((cfg0.win 7).blk t).view.emb y)
  obtain ⟨-, -, -, -, -, -, -, ⟨e0, e1, e2⟩⟩ := idx_facts t
  obtain ⟨u, v, c', rfl⟩ : ∃ (u v : Fin 1) (c' : Fin 2), y = ix3 u v c' := ⟨y 0, y 1, y 2, eq_ix3 y⟩
  obtain rfl : u = 0 := Subsingleton.elim _ _
  obtain rfl : v = 0 := Subsingleton.elim _ _
  refine (out_block m c t c').trans ?_
  have hemb : ((cfg0.win 7).blk t).view.emb (ix3 0 0 c') = ix3 (bOf t) 0 c' := by
    funext a; apply Fin.ext
    match a with
    | ⟨0, _⟩ => show win0_7.index t (0 : Fin 3) * 1 + 1 * 0 = t.val; rw [e0]; omega
    | ⟨1, _⟩ => show win0_7.index t (1 : Fin 3) * 1 + 1 * 0 = 0; rw [e1]
    | ⟨2, _⟩ => show win0_7.index t (2 : Fin 3) * 2 + 1 * c'.val = c'.val; rw [e2]; omega
  rw [hemb]
  rfl

/-- An index of the output array is in point `t`'s block iff each coordinate is in the block's range on its axis. -/
theorem mem_blk (t : Fin cfg0.N) (i : S8x1x2.Idx) :
    i ∈ ((cfg0.win 7).blk t).view.set ↔ ∀ a : Fin 3, win0_7.index t a * S1x1x2.size a ≤ (i a).val ∧ (i a).val < win0_7.index t a * S1x1x2.size a + S1x1x2.size a := by
  show i ∈ ((View.whole main_v4).slice (win0_7.rect t)).set ↔ _
  rw [View.set_slice_whole, Rect.mem_set_unit]
  exact Iff.rfl

/-- The point whose block holds row `b` of the output is point `b`. -/
def tOf (b : Fin 8) : Fin cfg0.N := ⟨b.val, Nat.lt_of_lt_of_eq b.isLt (show cfg0.N = 8 from N_0).symm⟩

/-- The eight blocks cover the output array, so it ends at the one function. -/
theorem final (c : Dev nD) : (dats m 0 c).arrAt 7 cfg0.N = GV m c :=
  (dats m 0 c).arrAt_eq_of_cover 7 (GV m c) (fun t _ => flushed_eq m c t) fun i => by
    have h0 : (i 0).val < 8 := (i 0).isLt
    have h1 : (i 1).val < 1 := (i 1).isLt
    have h2 : (i 2).val < 2 := (i 2).isLt
    refine ⟨tOf ⟨(i 0).val, h0⟩, flush0_7 _, ?_⟩
    rw [mem_blk]
    obtain ⟨-, -, -, -, -, -, -, ⟨e0, e1, e2⟩⟩ := idx_facts (tOf ⟨(i 0).val, h0⟩)
    intro a
    match a with
    | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
    | ⟨1, _⟩ => show win0_7.index _ (1 : Fin 3) * 1 ≤ (i 1).val ∧ (i 1).val < win0_7.index _ (1 : Fin 3) * 1 + 1; rw [e1]; omega
    | ⟨2, _⟩ => show win0_7.index _ (2 : Fin 3) * 2 ≤ (i 2).val ∧ (i 2).val < win0_7.index _ (2 : Fin 3) * 2 + 2; rw [e2]; omega

/-! ## The host lines around the region -/

/-- The query index array as the region finds it: the argument with a unit axis put in the middle. -/
theorem V_v0 (c : Dev nD) : (V m c main_v0 : S8x1x64.Idx → BitVec 32)
    = shapeCast S8x1x64 (m ((c : Thread nD τ).loc main_arg1) : S8x64.Idx → BitVec 32) shapeCasts_S8x64_S8x1x64 := by
  show StableHlo.after hostOps0 (fun b => m (c, b)) (Proc.devRef .tc main_v0) = _
  after_results
  rfl

/-- The document index array as the region finds it. -/
theorem V_v1 (c : Dev nD) : (V m c main_v1 : S8x1x256.Idx → BitVec 32)
    = shapeCast S8x1x256 (m ((c : Thread nD τ).loc main_arg2) : S8x256.Idx → BitVec 32) shapeCasts_S8x256_S8x1x256 := by
  show StableHlo.after hostOps0 (fun b => m (c, b)) (Proc.devRef .tc main_v1) = _
  after_results
  rfl

/-- The first layer's bias as the region finds it: a row. -/
theorem V_v2 (c : Dev nD) : (V m c main_v2 : S1x768.Idx → EReal)
    = shapeCast S1x768 (m ((c : Thread nD τ).loc main_arg4) : S768.Idx → EReal) shapeCasts_S768_S1x768 := by
  show StableHlo.after hostOps0 (fun b => m (c, b)) (Proc.devRef .tc main_v2) = _
  after_results
  rfl

/-- The second layer's bias as the region finds it: a row. -/
theorem V_v3 (c : Dev nD) : (V m c main_v3 : S1x2.Idx → EReal)
    = shapeCast S1x2 (m ((c : Thread nD τ).loc main_arg6) : S2.Idx → EReal) shapeCasts_S2_S1x2 := by
  show StableHlo.after hostOps0 (fun b => m (c, b)) (Proc.devRef .tc main_v3) = _
  after_results
  rfl

/-- Putting a unit axis in the middle of `[a, b]` reads, at `(i, 0, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- Dropping the unit middle axis of `[a, 1, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i 0 j) :=
  shapeCast_apply x h _ _ (by
    rw [Shape.rowMajor_val_three, Shape.rowMajor_val_two]
    show (i.val * 1 + (0 : Fin 1).val) * b + j.val = i.val * b + j.val
    rw [Fin.val_zero, Nat.mul_one, Nat.add_zero])

/-- The kernel's result `[8, 2]` from the argument arrays: at `(b, c)` the specification's logit `c` of batch `b`, rows
    gathered by comparing index words with positions. -/
def Kc (a0 : S8x512x768.Idx → EReal) (a1 : S8x64.Idx → BitVec 32) (a2 : S8x256.Idx → BitVec 32)
    (a3 : S1536x768.Idx → EReal) (a4 : S768.Idx → EReal) (a5 : S768x2.Idx → EReal) (a6 : S2.Idx → EReal)
    (b : Fin 8) (c : Fin 2) : EReal :=
  logit (fun q : Fin 64 => rowK (fun s h => a0 (ix3 b s h)) (a1 (ix2 b q))) (fun q : Fin 64 => mask (a1 (ix2 b q)))
    (fun d : Fin 256 => rowK (fun s h => a0 (ix3 b s h)) (a2 (ix2 b d))) (fun d : Fin 256 => mask (a2 (ix2 b d)))
    (fun (k : Fin 1536) (j : Fin 768) => a3 (ix2 k j)) (fun j : Fin 768 => a4 (ix1 j))
    (fun (j : Fin 768) (c : Fin 2) => a5 (ix2 j c)) (fun c : Fin 2 => a6 (ix1 c)) c

/-- The kernel's result array on core `c`. -/
def KV (c : Dev nD) : S8x2.Idx → EReal := fun i =>
  Kc (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(i 0).val, (i 0).isLt⟩ ⟨(i 1).val, (i 1).isLt⟩

/-- The one function of the staged arrays is, at `(b, 0, c)`, the result's entry `(b, c)`: the staged index arrays and
    biases are the arguments with a unit axis added. -/
theorem GV_apply (c : Dev nD) (b : Fin 8) (c' : Fin 2) : GV m c (ix3 b 0 c') = KV m c (ix2 b c') := by
  show Gc _ _ _ _ _ _ _ b c' = Kc _ _ _ _ _ _ _ b c'
  unfold Gc Kc
  rw [V_main_arg0, V_main_arg3, V_main_arg5, V_v0, V_v1, V_v2, V_v3]
  simp only [shapeCast_ab_a1b_apply, shapeCast_a_1a_apply]

/-- The host line after the region: the result is the output array with its unit axis dropped. -/
theorem tail_eq (c : Dev nD) :
    Pipeline.afterTail₀ cfgs (dats m) 0 (V0 m) [hostOps1] c main_v5 = KV m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v4)
      = GV m c :=
    (Pipeline.withArrays_arr spec0 launch0.win.arr_inj c _ _ 7).trans (final m c)
  funext i
  obtain ⟨b, c', rfl⟩ : ∃ (b : Fin 8) (c' : Fin 2), i = ix2 b c' := ⟨i 0, i 1, eq_ix2 i⟩
  show shapeCast S8x2 (Pipeline.withArrays (cfgs 0).spec c (V0 m c) (fun w => (dats m 0 c).arrAt w (cfgs 0).N)
      (Proc.tc.devRef main_v4)) shapeCasts_S8x1x2_S8x2 (ix2 b c') = KV m c (ix2 b c')
  refine (congrArg (fun A : S8x1x2.Idx → EReal => shapeCast S8x2 A shapeCasts_S8x1x2_S8x2 (ix2 b c')) hw).trans ?_
  exact (shapeCast_a1b_ab_apply _ _ b c').trans (GV_apply m c b c')

/-- The run, read: the result array at the specification's logits of the argument arrays, the arguments unchanged. -/
theorem run : θ_run defs (onTc (τ := τ) (main (F := Ideal))) ⟨m, fun _ => 0, ρ⟩ fun r => ∀ c : Dev nD,
      r.2.mem ((c : Thread nD τ).loc main_v5) = KV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KerRun

end
-- ==== Proof.RefRows.lean ====
/-
  The reference's gathered rows, masks and token counts, read at an index at the extended reals.
  Batch `b`'s token table is `X b s h = x0 (b, s, h)`. The take-along-axis normalises an index (a negative one counts
  from the end), gathers the row at it, and fills with the not-a-number word — `⊥` on the extended reals — where the
  normalised index is not one of `0 … 511`: `rowR`. A token is unmasked when its index is positive.
-/
import proofs.«402888_j21912923144748_1_alg».proof.Proof.RefRead
import proofs.«402888_j21912923144748_1_alg».proof.Proof.PoolSpec
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine

noncomputable section

open scoped BigOperators

namespace Cert.RefValue

open Idealize.ShloMosaic Idealize.ShloMosaic.ValueIdx Idealize.ShloMosaic.StableHlo Idealize.SL.Sem
open Cert.ReferenceIdeal Cert.ReferenceIdeal.Gen Cert.ReferenceIdeal.Read Cert.PoolSpec

variable (x0 : (⟨S8x512x768, .f32⟩ : BufTy).Contents (Elt Ideal)) (x1 : (⟨S8x64, .i32⟩ : BufTy).Contents (Elt Ideal))
  (x2 : (⟨S8x256, .i32⟩ : BufTy).Contents (Elt Ideal))

/-- Batch `b`'s token table. -/
def X (b : Fin 8) (s : Fin 512) (h : Fin 768) : EReal := x0 (ix3 b s h)
/-- Batch `b`'s query rows, as the reference gathers them. -/
def RA (b : Fin 8) (q : Fin 64) (h : Fin 768) : EReal := rowR (X x0 b) (x1 (ix2 b q)) h
/-- Batch `b`'s query mask. -/
def MA (b : Fin 8) (q : Fin 64) : EReal := mask (x1 (ix2 b q))
/-- Batch `b`'s document rows, as the reference gathers them. -/
def RB (b : Fin 8) (d : Fin 256) (h : Fin 768) : EReal := rowR (X x0 b) (x2 (ix2 b d)) h
/-- Batch `b`'s document mask. -/
def MB (b : Fin 8) (d : Fin 256) : EReal := mask (x2 (ix2 b d))

/-! ## Words -/

private theorem toInt_zero32 : (0#32 : BitVec 32).toInt = 0 := by decide
private theorem toInt_511 : (511#32 : BitVec 32).toInt = 511 := by decide

/-- The one-bit word of "greater than zero, signed", converted to a float, is the mask. -/
private theorem uitofp_sgt_zero (i : BitVec 32) :
    FloatOps.uitofp (F := Ideal) .f32 (IntOp.cmpi .sgt i 0#32) = mask i := by
  unfold mask
  by_cases h : 0 < i.toInt
  · have h1 : IntOp.cmpi .sgt i 0#32 = 1#1 := by rw [IntOp.cmpi_sgt, toInt_zero32]; exact h
    rw [h1, if_pos h]
    show (((1#1 : BitVec 1).toNat : ℝ) : EReal) = 1
    simp
  · have h0 : IntOp.cmpi .sgt i 0#32 = 0#1 :=
      eq_zero_of_ne_one (fun e => h (by rw [IntOp.cmpi_sgt, toInt_zero32] at e; exact e))
    rw [h0, if_neg h]
    show (((0#1 : BitVec 1).toNat : ℝ) : EReal) = 0
    simp

/-- The word the take-along-axis gathers at: a negative index counts from the end. -/
private theorem select_wrap (i : BitVec 32) :
    Scalar.select (IntOp.cmpi .slt i 0#32) (IntOp.addi i 512#32) i = wrap i := by
  unfold wrap
  by_cases h : i.toInt < 0
  · have h1 : IntOp.cmpi .slt i 0#32 = 1#1 := by rw [IntOp.cmpi_slt, toInt_zero32]; exact h
    rw [h1, select_one, if_pos h]; rfl
  · have h0 : IntOp.cmpi .slt i 0#32 = 0#1 :=
      eq_zero_of_ne_one (fun e => h (by rw [IntOp.cmpi_slt, toInt_zero32] at e; exact e))
    rw [h0, select_zero, if_neg h]

/-- The fill word is a not-a-number pattern: `⊥` on the extended reals. -/
private theorem nan_bot : FloatOps.ofBits (F := Ideal) .f32 0x7FC00000#32 = ⊥ := by
  simp [Ideal.ofBits, Ideal.ieee]

/-- The row at the clamped normalised index where that index is one of `0 … 511` (there the clamp does nothing),
    the fill elsewhere: `rowR`. -/
private theorem select_row (T : Fin 512 → Fin 768 → EReal) (i : BitVec 32) (h : Fin 768)
    (hlt : min (wrap i).toInt.toNat 511 < 512) :
    Scalar.select (IntOp.andi (IntOp.cmpi .sge (wrap i) 0#32) (IntOp.cmpi .sle (wrap i) 511#32))
      (T ⟨min (wrap i).toInt.toNat 511, hlt⟩ h) (FloatOps.ofBits (F := Ideal) .f32 0x7FC00000#32) = rowR T i h := by
  unfold rowR
  by_cases hi : 0 ≤ (wrap i).toInt ∧ (wrap i).toInt ≤ 511
  · have hc : IntOp.andi (IntOp.cmpi .sge (wrap i) 0#32) (IntOp.cmpi .sle (wrap i) 511#32) = 1#1 :=
      IntOp.andi_eq_one.mpr ⟨by rw [IntOp.cmpi_sge, toInt_zero32]; exact hi.1,
        by rw [IntOp.cmpi_sle, toInt_511]; exact hi.2⟩
    rw [hc, select_one, dif_pos hi]
    have e : min (wrap i).toInt.toNat 511 = (wrap i).toNat := by
      have h1 := hi.1; have h2 := hi.2
      have h3 := BitVec.toInt_eq_toNat_cond (wrap i)
      split at h3 <;> omega
    exact congrArg (fun k => T k h) (Fin.ext e)
  · have hc : IntOp.andi (IntOp.cmpi .sge (wrap i) 0#32) (IntOp.cmpi .sle (wrap i) 511#32) = 0#1 :=
      eq_zero_of_ne_one (fun e => hi (by
        obtain ⟨e1, e2⟩ := IntOp.andi_eq_one.mp e
        rw [IntOp.cmpi_sge, toInt_zero32] at e1
        rw [IntOp.cmpi_sle, toInt_511] at e2
        exact ⟨e1, e2⟩))
    rw [hc, select_zero, dif_neg hi, nan_bot]

private theorem and_one (c : BitVec 1) : IntOp.andi c 1#1 = c := by revert c; decide

/-! ## The two operations read by hand: the reduction by `and` over the size-one axis, and the gather -/

private theorem reduces_q : S8x64x1.Reduces [2] S8x64 := by decide
private theorem reduces_d : S8x256x1.Reduces [2] S8x256 := by decide

/-- A reduction by `and`, from `1`, over an axis of size one is the one element. -/
private theorem and_call0 (p : S8x64x1.Idx → BitVec 1) (init : S_.Idx → BitVec 1)
    (hinit : init (Shape.Idx.first h_S_) = 1#1) (b : Fin 8) (q : Fin 64) :
    Host.reduce IntOp.andi p init reducesTo_S8x64x1_S8x64_d2 h_S_ (ix2 b q) = p (ix3 b q 0) := by
  rw [Host.reduce_eq_fold_single IntOp.andi p init reducesTo_S8x64x1_S8x64_d2 reduces_q h_S_, hinit]
  have hu : (Finset.univ : Finset (Fin (S8x64x1.size 2))) = {⟨0, by decide⟩} := by decide
  rw [hu, Finset.fold_singleton, and_one]
  show p _ = p _
  congr 1
  funext c
  refine Fin.ext ?_
  match c with
  | ⟨0, _⟩ => rfl
  | ⟨1, _⟩ => rfl
  | ⟨2, _⟩ => rfl

/-- The same over the document side. -/
private theorem and_call1 (p : S8x256x1.Idx → BitVec 1) (init : S_.Idx → BitVec 1)
    (hinit : init (Shape.Idx.first h_S_) = 1#1) (b : Fin 8) (d : Fin 256) :
    Host.reduce IntOp.andi p init reducesTo_S8x256x1_S8x256_d2 h_S_ (ix2 b d) = p (ix3 b d 0) := by
  rw [Host.reduce_eq_fold_single IntOp.andi p init reducesTo_S8x256x1_S8x256_d2 reduces_d h_S_, hinit]
  have hu : (Finset.univ : Finset (Fin (S8x256x1.size 2))) = {⟨0, by decide⟩} := by decide
  rw [hu, Finset.fold_singleton, and_one]
  show p _ = p _
  congr 1
  funext c
  refine Fin.ext ?_
  match c with
  | ⟨0, _⟩ => rfl
  | ⟨1, _⟩ => rfl
  | ⟨2, _⟩ => rfl

/-- The gather at `(b, q, h)`: the batch is `b` (the batching axis), the row is the start index `idx (b, q, 0)` read
    signed and clamped into `0 … 511` (the collapsed axis), the column is `h` (the offset axis). -/
private theorem gather_call0 {α : Type} {w : Nat} (x : S8x512x768.Idx → α) (idx : IVec S8x64x1 w) (b : Fin 8)
    (q : Fin 64) (h : Fin 768) (i : BitVec w) (hi : idx (ix3 b q 0) = i) :
    Host.gather gather_S8x512x768_S8x64x1_S8x64x768_2_1_0_0_1_2_11768 x idx (ix3 b q h)
      = x (ix3 b ⟨min i.toInt.toNat 511, by omega⟩ h) := by
  subst hi
  unfold Host.gather
  congr 1
  funext a
  refine Fin.ext ?_
  match a with
  | ⟨0, _⟩ =>
    show gather_S8x512x768_S8x64x1_S8x64x768_2_1_0_0_1_2_11768.start (ix3 b q h) idx 0
      + gather_S8x512x768_S8x64x1_S8x64x768_2_1_0_0_1_2_11768.batchCoord (ix3 b q h) 0
      + gather_S8x512x768_S8x64x1_S8x64x768_2_1_0_0_1_2_11768.offCoord (ix3 b q h) 0 = b.val
    rw [gather_S8x512x768_S8x64x1_S8x64x768_2_1_0_0_1_2_11768.start_batching _ idx 0 (List.mem_singleton.mpr rfl),
      gather_S8x512x768_S8x64x1_S8x64x768_2_1_0_0_1_2_11768.offCoord_eq_zero _ 0
        (fun hh => ((gather_S8x512x768_S8x64x1_S8x64x768_2_1_0_0_1_2_11768.mem_sKept _).mp hh).2 (List.mem_singleton.mpr rfl)),
      Nat.zero_add, Nat.add_zero]
    unfold GatherDims.batchCoord
    rw [dif_pos (show (0 : Fin 3) ∈ gather_S8x512x768_S8x64x1_S8x64x768_2_1_0_0_1_2_11768.operandBatchingDims from
      List.mem_singleton.mpr rfl)]
    rfl
  | ⟨1, _⟩ =>
    show gather_S8x512x768_S8x64x1_S8x64x768_2_1_0_0_1_2_11768.start (ix3 b q h) idx 1
      + gather_S8x512x768_S8x64x1_S8x64x768_2_1_0_0_1_2_11768.batchCoord (ix3 b q h) 1
      + gather_S8x512x768_S8x64x1_S8x64x768_2_1_0_0_1_2_11768.offCoord (ix3 b q h) 1 = _
    rw [gather_S8x512x768_S8x64x1_S8x64x768_2_1_0_0_1_2_11768.batchCoord_eq_zero _ 1 (by decide),
      gather_S8x512x768_S8x64x1_S8x64x768_2_1_0_0_1_2_11768.offCoord_eq_zero _ 1
        (fun hh => ((gather_S8x512x768_S8x64x1_S8x64x768_2_1_0_0_1_2_11768.mem_sKept _).mp hh).1 (List.mem_singleton.mpr rfl))]
    unfold GatherDims.start
    rw [dif_pos (show (1 : Fin 3) ∈ gather_S8x512x768_S8x64x1_S8x64x768_2_1_0_0_1_2_11768.startIndexMap from
      List.mem_singleton.mpr rfl)]
    have hsi : gather_S8x512x768_S8x64x1_S8x64x768_2_1_0_0_1_2_11768.siIdx (ix3 b q h)
        ⟨List.idxOf (1 : Fin 3) gather_S8x512x768_S8x64x1_S8x64x768_2_1_0_0_1_2_11768.startIndexMap,
          List.idxOf_lt_length_iff.2 (List.mem_singleton.mpr rfl)⟩ = ix3 b q 0 := by
      funext c; refine Fin.ext ?_
      match c with
      | ⟨0, _⟩ => rfl
      | ⟨1, _⟩ => rfl
      | ⟨2, _⟩ => rfl
    rw [hsi]
    rfl
  | ⟨2, _⟩ =>
    show gather_S8x512x768_S8x64x1_S8x64x768_2_1_0_0_1_2_11768.start (ix3 b q h) idx 2
      + gather_S8x512x768_S8x64x1_S8x64x768_2_1_0_0_1_2_11768.batchCoord (ix3 b q h) 2
      + gather_S8x512x768_S8x64x1_S8x64x768_2_1_0_0_1_2_11768.offCoord (ix3 b q h) 2 = h.val
    rw [gather_S8x512x768_S8x64x1_S8x64x768_2_1_0_0_1_2_11768.batchCoord_eq_zero _ 2 (by decide), Nat.add_zero]
    unfold GatherDims.start
    rw [dif_neg (by decide), Nat.zero_add]
    unfold GatherDims.offCoord
    rw [dif_pos (by decide)]
    rfl

/-- The same over the document side. -/
private theorem gather_call1 {α : Type} {w : Nat} (x : S8x512x768.Idx → α) (idx : IVec S8x256x1 w) (b : Fin 8)
    (q : Fin 256) (h : Fin 768) (i : BitVec w) (hi : idx (ix3 b q 0) = i) :
    Host.gather gather_S8x512x768_S8x256x1_S8x256x768_2_1_0_0_1_2_11768 x idx (ix3 b q h)
      = x (ix3 b ⟨min i.toInt.toNat 511, by omega⟩ h) := by
  subst hi
  unfold Host.gather
  congr 1
  funext a
  refine Fin.ext ?_
  match a with
  | ⟨0, _⟩ =>
    show gather_S8x512x768_S8x256x1_S8x256x768_2_1_0_0_1_2_11768.start (ix3 b q h) idx 0
      + gather_S8x512x768_S8x256x1_S8x256x768_2_1_0_0_1_2_11768.batchCoord (ix3 b q h) 0
      + gather_S8x512x768_S8x256x1_S8x256x768_2_1_0_0_1_2_11768.offCoord (ix3 b q h) 0 = b.val
    rw [gather_S8x512x768_S8x256x1_S8x256x768_2_1_0_0_1_2_11768.start_batching _ idx 0 (List.mem_singleton.mpr rfl),
      gather_S8x512x768_S8x256x1_S8x256x768_2_1_0_0_1_2_11768.offCoord_eq_zero _ 0
        (fun hh => ((gather_S8x512x768_S8x256x1_S8x256x768_2_1_0_0_1_2_11768.mem_sKept _).mp hh).2 (List.mem_singleton.mpr rfl)),
      Nat.zero_add, Nat.add_zero]
    unfold GatherDims.batchCoord
    rw [dif_pos (show (0 : Fin 3) ∈ gather_S8x512x768_S8x256x1_S8x256x768_2_1_0_0_1_2_11768.operandBatchingDims from
      List.mem_singleton.mpr rfl)]
    rfl
  | ⟨1, _⟩ =>
    show gather_S8x512x768_S8x256x1_S8x256x768_2_1_0_0_1_2_11768.start (ix3 b q h) idx 1
      + gather_S8x512x768_S8x256x1_S8x256x768_2_1_0_0_1_2_11768.batchCoord (ix3 b q h) 1
      + gather_S8x512x768_S8x256x1_S8x256x768_2_1_0_0_1_2_11768.offCoord (ix3 b q h) 1 = _
    rw [gather_S8x512x768_S8x256x1_S8x256x768_2_1_0_0_1_2_11768.batchCoord_eq_zero _ 1 (by decide),
      gather_S8x512x768_S8x256x1_S8x256x768_2_1_0_0_1_2_11768.offCoord_eq_zero _ 1
        (fun hh => ((gather_S8x512x768_S8x256x1_S8x256x768_2_1_0_0_1_2_11768.mem_sKept _).mp hh).1 (List.mem_singleton.mpr rfl))]
    unfold GatherDims.start
    rw [dif_pos (show (1 : Fin 3) ∈ gather_S8x512x768_S8x256x1_S8x256x768_2_1_0_0_1_2_11768.startIndexMap from
      List.mem_singleton.mpr rfl)]
    have hsi : gather_S8x512x768_S8x256x1_S8x256x768_2_1_0_0_1_2_11768.siIdx (ix3 b q h)
        ⟨List.idxOf (1 : Fin 3) gather_S8x512x768_S8x256x1_S8x256x768_2_1_0_0_1_2_11768.startIndexMap,
          List.idxOf_lt_length_iff.2 (List.mem_singleton.mpr rfl)⟩ = ix3 b q 0 := by
      funext c; refine Fin.ext ?_
      match c with
      | ⟨0, _⟩ => rfl
      | ⟨1, _⟩ => rfl
      | ⟨2, _⟩ => rfl
    rw [hsi]
    rfl
  | ⟨2, _⟩ =>
    show gather_S8x512x768_S8x256x1_S8x256x768_2_1_0_0_1_2_11768.start (ix3 b q h) idx 2
      + gather_S8x512x768_S8x256x1_S8x256x768_2_1_0_0_1_2_11768.batchCoord (ix3 b q h) 2
      + gather_S8x512x768_S8x256x1_S8x256x768_2_1_0_0_1_2_11768.offCoord (ix3 b q h) 2 = h.val
    rw [gather_S8x512x768_S8x256x1_S8x256x768_2_1_0_0_1_2_11768.batchCoord_eq_zero _ 2 (by decide), Nat.add_zero]
    unfold GatherDims.start
    rw [dif_neg (by decide), Nat.zero_add]
    unfold GatherDims.offCoord
    rw [dif_pos (by decide)]
    rfl

/-! ## The take-along-axis, read at an index -/

/-- The query side's gathering word at `(b, q, 0)`: the normalised index. -/
private theorem call0_v4_at (b : Fin 8) (q : Fin 64) :
    val_main_call0_v4 (F := Ideal) x1 (ix3 b q 0) = wrap (x1 (ix2 b q)) := by
  have hk : idx_main_v8 (ix3 b q (0 : Fin 1)) = ix2 b q :=
    funext fun a => Fin.ext (by match a with | ⟨0, _⟩ => rfl | ⟨1, _⟩ => rfl)
  rw [val_main_call0_v4_apply, val_main_call0_v1_apply, val_main_call0_v3_apply, val_main_v8_apply,
    val_main_call0_v0_apply, val_main_call0_c_apply, val_main_call0_v2_apply, val_main_call0_c_0_apply, hk]
  exact select_wrap _

/-- The query side's in-range bit at `(b, q)`. -/
private theorem call0_v11_at (b : Fin 8) (q : Fin 64) :
    val_main_call0_v11 (F := Ideal) x1 (ix2 b q)
      = IntOp.andi (IntOp.cmpi .sge (wrap (x1 (ix2 b q))) 0#32) (IntOp.cmpi .sle (wrap (x1 (ix2 b q))) 511#32) := by
  unfold val_main_call0_v11
  rw [and_call0 _ _ rfl b q, val_main_call0_v10_apply, val_main_call0_v6_apply, val_main_call0_v9_apply,
    call0_v4_at, val_main_call0_v5_apply, val_main_call0_c_2_apply, val_main_call0_v8_apply,
    val_main_call0_v7_apply, val_main_call0_c_1_apply]

/-- The document side's gathering word at `(b, d, 0)`: the normalised index. -/
private theorem call1_v4_at (b : Fin 8) (d : Fin 256) :
    val_main_call1_v4 (F := Ideal) x2 (ix3 b d 0) = wrap (x2 (ix2 b d)) := by
  have hk : idx_main_v10 (ix3 b d (0 : Fin 1)) = ix2 b d :=
    funext fun a => Fin.ext (by match a with | ⟨0, _⟩ => rfl | ⟨1, _⟩ => rfl)
  rw [val_main_call1_v4_apply, val_main_call1_v1_apply, val_main_call1_v3_apply, val_main_v10_apply,
    val_main_call1_v0_apply, val_main_call1_c_apply, val_main_call1_v2_apply, val_main_call1_c_0_apply, hk]
  exact select_wrap _

/-- The document side's in-range bit at `(b, d)`. -/
private theorem call1_v11_at (b : Fin 8) (d : Fin 256) :
    val_main_call1_v11 (F := Ideal) x2 (ix2 b d)
      = IntOp.andi (IntOp.cmpi .sge (wrap (x2 (ix2 b d))) 0#32) (IntOp.cmpi .sle (wrap (x2 (ix2 b d))) 511#32) := by
  unfold val_main_call1_v11
  rw [and_call1 _ _ rfl b d, val_main_call1_v10_apply, val_main_call1_v6_apply, val_main_call1_v9_apply,
    call1_v4_at, val_main_call1_v5_apply, val_main_call1_c_2_apply, val_main_call1_v8_apply,
    val_main_call1_v7_apply, val_main_call1_c_1_apply]

theorem v9_apply (b : Fin 8) (q : Fin 64) (h : Fin 768) :
    val_main_v9 (F := Ideal) x0 x1 (ix3 b q h) = RA x0 x1 b q h := by
  have hk : idx_main_call0_v13 (ix3 b q h) = ix2 b q :=
    funext fun a => Fin.ext (by match a with | ⟨0, _⟩ => rfl | ⟨1, _⟩ => rfl)
  rw [val_main_v9_apply, val_main_call0_v13_apply, hk, call0_v11_at, val_main_call0_v14_apply,
    val_main_call0_cst_apply]
  unfold val_main_call0_v12
  rw [gather_call0 x0 _ b q h _ (call0_v4_at x1 b q)]
  exact select_row (X x0 b) _ h _

theorem v11_apply (b : Fin 8) (d : Fin 256) (h : Fin 768) :
    val_main_v11 (F := Ideal) x0 x2 (ix3 b d h) = RB x0 x2 b d h := by
  have hk : idx_main_call1_v13 (ix3 b d h) = ix2 b d :=
    funext fun a => Fin.ext (by match a with | ⟨0, _⟩ => rfl | ⟨1, _⟩ => rfl)
  rw [val_main_v11_apply, val_main_call1_v13_apply, hk, call1_v11_at, val_main_call1_v14_apply,
    val_main_call1_cst_apply]
  unfold val_main_call1_v12
  rw [gather_call1 x0 _ b d h _ (call1_v4_at x2 b d)]
  exact select_row (X x0 b) _ h _

theorem v2_apply (b : Fin 8) (q : Fin 64) : val_main_v2 (F := Ideal) x1 (ix2 b q) = MA x1 b q := by
  rw [val_main_v2_apply, val_main_v1_apply, val_main_v0_apply, val_main_c_apply]
  exact uitofp_sgt_zero _

theorem v5_apply (b : Fin 8) (d : Fin 256) : val_main_v5 (F := Ideal) x2 (ix2 b d) = MB x2 b d := by
  rw [val_main_v5_apply, val_main_v4_apply, val_main_v3_apply, val_main_c_0_apply]
  exact uitofp_sgt_zero _

theorem v6_apply (b : Fin 8) : val_main_v6 (F := Ideal) x1 (ix1 b) = len (MA x1 b) := by
  rw [val_main_v6_apply, val_main_cst_apply, Ideal.ofBits_def, Ideal.ofBits_zero_f32, zero_add]
  unfold len
  refine Finset.sum_congr rfl fun k _ => ?_
  have hk : idx_main_v6 (ix1 b) k = ix2 b k :=
    funext fun a => Fin.ext (by match a with | ⟨0, _⟩ => rfl | ⟨1, _⟩ => rfl)
  rw [hk]
  exact v2_apply x1 b k

theorem v7_apply (b : Fin 8) : val_main_v7 (F := Ideal) x2 (ix1 b) = len (MB x2 b) := by
  rw [val_main_v7_apply, val_main_cst_1_apply, Ideal.ofBits_def, Ideal.ofBits_zero_f32, zero_add]
  unfold len
  refine Finset.sum_congr rfl fun k _ => ?_
  have hk : idx_main_v7 (ix1 b) k = ix2 b k :=
    funext fun a => Fin.ext (by match a with | ⟨0, _⟩ => rfl | ⟨1, _⟩ => rfl)
  rw [hk]
  exact v5_apply x2 b k

end Cert.RefValue

end
-- ==== Proof.RefSim.lean ====
/-
  The reference from the gathered rows to the per-query weighted document average, read at an index: each row over
  its clamped norm, the similarity matrix as inner products of scaled rows, the document mask, the weighted sum of
  document rows over the document count.
-/
import proofs.«402888_j21912923144748_1_alg».proof.Proof.RefRows

noncomputable section

open scoped BigOperators

namespace Cert.RefValue

open Idealize.ShloMosaic Idealize.ShloMosaic.ValueIdx Idealize.ShloMosaic.StableHlo Idealize.SL.Sem
open Cert.ReferenceIdeal Cert.ReferenceIdeal.Gen Cert.ReferenceIdeal.Read Cert.PoolSpec

variable (x0 : (⟨S8x512x768, .f32⟩ : BufTy).Contents (Elt Ideal)) (x1 : (⟨S8x64, .i32⟩ : BufTy).Contents (Elt Ideal))
  (x2 : (⟨S8x256, .i32⟩ : BufTy).Contents (Elt Ideal))

/-- The query side's clamped norm, kept on a unit last axis: the square root of the row's sum of squares, clamped
    below by the constant. -/
private theorem v14_apply (b : Fin 8) (q : Fin 64) (j : Fin 1) :
    val_main_v14 (F := Ideal) x0 x1 (ix3 b q j) = nrm (RA x0 x1 b q) := by
  rw [val_main_v14_apply, val_main_v13_apply, val_main_cst_2_apply, val_main_v12_apply, val_main_call2_v2_apply,
    val_main_call2_v1_apply, val_main_call2_cst_apply]
  simp only [Ideal.maximumf_def, Ideal.hostUnary_sqrt_def, Ideal.ofBits_def, Ideal.ofBits_zero_f32, zero_add]
  unfold nrm eps
  refine congrArg (fun s => max (Ideal.sqrt s) (Ideal.ofBits .f32 0x322BCC77#32)) (Finset.sum_congr rfl fun k _ => ?_)
  have e : idx_main_call2_v1 (idx_main_call2_v2 (ix3 b q j)) k = ix3 b q k :=
    funext fun a => Fin.ext (by match a with | ⟨0, _⟩ => rfl | ⟨1, _⟩ => rfl | ⟨2, _⟩ => rfl)
  rw [e, val_main_call2_v0_apply, v9_apply, Ideal.mulf_def]

theorem v16_apply (b : Fin 8) (q : Fin 64) (h : Fin 768) :
    val_main_v16 (F := Ideal) x0 x1 (ix3 b q h) = unit (RA x0 x1 b q) h := by
  rw [val_main_v16_apply, val_main_v15_apply]
  have e : idx_main_v15 (ix3 b q h) = ix3 b q (0 : Fin 1) :=
    funext fun a => Fin.ext (by match a with | ⟨0, _⟩ => rfl | ⟨1, _⟩ => rfl | ⟨2, _⟩ => rfl)
  rw [e, v14_apply, v9_apply, Ideal.hostDivf_def]
  rfl

/-- The document side's clamped norm, kept on a unit last axis. -/
private theorem v19_apply (b : Fin 8) (d : Fin 256) (j : Fin 1) :
    val_main_v19 (F := Ideal) x0 x2 (ix3 b d j) = nrm (RB x0 x2 b d) := by
  rw [val_main_v19_apply, val_main_v18_apply, val_main_cst_3_apply, val_main_v17_apply, val_main_call3_v2_apply,
    val_main_call3_v1_apply, val_main_call3_cst_apply]
  simp only [Ideal.maximumf_def, Ideal.hostUnary_sqrt_def, Ideal.ofBits_def, Ideal.ofBits_zero_f32, zero_add]
  unfold nrm eps
  refine congrArg (fun s => max (Ideal.sqrt s) (Ideal.ofBits .f32 0x322BCC77#32)) (Finset.sum_congr rfl fun k _ => ?_)
  have e : idx_main_call3_v1 (idx_main_call3_v2 (ix3 b d j)) k = ix3 b d k :=
    funext fun a => Fin.ext (by match a with | ⟨0, _⟩ => rfl | ⟨1, _⟩ => rfl | ⟨2, _⟩ => rfl)
  rw [e, val_main_call3_v0_apply, v11_apply, Ideal.mulf_def]

theorem v21_apply (b : Fin 8) (d : Fin 256) (h : Fin 768) :
    val_main_v21 (F := Ideal) x0 x2 (ix3 b d h) = unit (RB x0 x2 b d) h := by
  rw [val_main_v21_apply, val_main_v20_apply]
  have e : idx_main_v20 (ix3 b d h) = ix3 b d (0 : Fin 1) :=
    funext fun a => Fin.ext (by match a with | ⟨0, _⟩ => rfl | ⟨1, _⟩ => rfl | ⟨2, _⟩ => rfl)
  rw [e, v19_apply, v11_apply, Ideal.hostDivf_def]
  rfl

theorem v22_apply (b : Fin 8) (q : Fin 64) (d : Fin 256) :
    val_main_v22 (F := Ideal) x0 x1 x2 (ix3 b q d) = sim (RA x0 x1 b) (RB x0 x2 b) q d := by
  rw [val_main_v22_apply]
  unfold sim
  refine Finset.sum_congr rfl fun k _ => ?_
  have el : lidx_main_v22 (ix3 b q d) k = ix3 b q k :=
    funext fun a => Fin.ext (by match a with | ⟨0, _⟩ => rfl | ⟨1, _⟩ => rfl | ⟨2, _⟩ => rfl)
  have er : ridx_main_v22 (ix3 b q d) k = ix3 b d k :=
    funext fun a => Fin.ext (by match a with | ⟨0, _⟩ => rfl | ⟨1, _⟩ => rfl | ⟨2, _⟩ => rfl)
  rw [el, er, v16_apply, v21_apply]

/-- The similarity under the document mask. -/
private theorem v25_apply (b : Fin 8) (q : Fin 64) (d : Fin 256) :
    val_main_v25 (F := Ideal) x0 x1 x2 (ix3 b q d) = sim (RA x0 x1 b) (RB x0 x2 b) q d * MB x2 b d := by
  rw [val_main_v25_apply, val_main_v24_apply, val_main_v23_apply]
  have e : idx_main_v23 (idx_main_v24 (ix3 b q d)) = ix2 b d :=
    funext fun a => Fin.ext (by match a with | ⟨0, _⟩ => rfl | ⟨1, _⟩ => rfl)
  rw [e, v22_apply, v5_apply, Ideal.mulf_def]

theorem v29_apply (b : Fin 8) (q : Fin 64) (h : Fin 768) :
    val_main_v29 (F := Ideal) x0 x1 x2 (ix3 b q h) = pqd (RA x0 x1 b) (RB x0 x2 b) (MB x2 b) q h := by
  rw [val_main_v29_apply, val_main_v28_apply, val_main_v27_apply, val_main_v26_apply]
  have e : idx_main_v27 (idx_main_v28 (ix3 b q h)) = ix1 b :=
    funext fun a => Fin.ext (by match a with | ⟨0, _⟩ => rfl)
  rw [e, v7_apply, Ideal.hostDivf_def]
  unfold pqd
  refine congrArg (fun s => Ideal.div s (len (MB x2 b))) (Finset.sum_congr rfl fun k _ => ?_)
  have el : lidx_main_v26 (ix3 b q h) k = ix3 b q k :=
    funext fun a => Fin.ext (by match a with | ⟨0, _⟩ => rfl | ⟨1, _⟩ => rfl | ⟨2, _⟩ => rfl)
  have er : ridx_main_v26 (ix3 b q h) k = ix3 b k h :=
    funext fun a => Fin.ext (by match a with | ⟨0, _⟩ => rfl | ⟨1, _⟩ => rfl | ⟨2, _⟩ => rfl)
  rw [el, er, v25_apply, v11_apply]

end Cert.RefValue

end
-- ==== Proof.RefHead.lean ====
/-
  The reference from the per-query averages to the logits, read at an index: the masked averages over the query
  tokens, the two averages side by side, the two dense layers with the ramp between.
-/
import proofs.«402888_j21912923144748_1_alg».proof.Proof.RefSim

noncomputable section

open scoped BigOperators

namespace Cert.RefValue

open Idealize.ShloMosaic Idealize.ShloMosaic.ValueIdx Idealize.ShloMosaic.StableHlo Idealize.SL.Sem
open Cert.ReferenceIdeal Cert.ReferenceIdeal.Gen Cert.ReferenceIdeal.Read Cert.PoolSpec

variable (x0 : (⟨S8x512x768, .f32⟩ : BufTy).Contents (Elt Ideal)) (x1 : (⟨S8x64, .i32⟩ : BufTy).Contents (Elt Ideal))
  (x2 : (⟨S8x256, .i32⟩ : BufTy).Contents (Elt Ideal))
  (x3 : (⟨S1536x768, .f32⟩ : BufTy).Contents (Elt Ideal)) (x4 : (⟨S768, .f32⟩ : BufTy).Contents (Elt Ideal))
  (x5 : (⟨S768x2, .f32⟩ : BufTy).Contents (Elt Ideal)) (x6 : (⟨S2, .f32⟩ : BufTy).Contents (Elt Ideal))

/-! ## The stages' index maps at an index given by its coordinates -/

private theorem i33 (b : Fin 8) (h : Fin 768) (k : Fin 64) : idx_main_v33 (ix2 b h) k = ix3 b k h :=
  funext fun a => by match a with | ⟨0, _⟩ => rfl | ⟨1, _⟩ => rfl | ⟨2, _⟩ => rfl

private theorem i39 (b : Fin 8) (h : Fin 768) (k : Fin 64) : idx_main_v39 (ix2 b h) k = ix3 b k h :=
  funext fun a => by match a with | ⟨0, _⟩ => rfl | ⟨1, _⟩ => rfl | ⟨2, _⟩ => rfl

private theorem i31 (b : Fin 8) (q : Fin 64) (h : Fin 768) : idx_main_v30 (idx_main_v31 (ix3 b q h)) = ix2 b q :=
  funext fun a => by match a with | ⟨0, _⟩ => rfl | ⟨1, _⟩ => rfl

private theorem i37 (b : Fin 8) (q : Fin 64) (h : Fin 768) : idx_main_v30 (idx_main_v37 (ix3 b q h)) = ix2 b q :=
  funext fun a => by match a with | ⟨0, _⟩ => rfl | ⟨1, _⟩ => rfl

private theorem i35 (b : Fin 8) (h : Fin 768) : idx_main_v34 (idx_main_v35 (ix2 b h)) = ix1 b :=
  funext fun a => by match a with | ⟨0, _⟩ => rfl

private theorem i41 (b : Fin 8) (h : Fin 768) : idx_main_v40 (idx_main_v41 (ix2 b h)) = ix1 b :=
  funext fun a => by match a with | ⟨0, _⟩ => rfl

theorem v36_apply (b : Fin 8) (h : Fin 768) :
    val_main_v36 (F := Ideal) x0 x1 x2 (ix2 b h) = qbd (RA x0 x1 b) (MA x1 b) (RB x0 x2 b) (MB x2 b) h := by
  rw [val_main_v36_apply, val_main_v33_apply, val_main_v35_apply, val_main_v34_apply, val_main_cst_4_apply, i35, v6_apply]
  simp only [val_main_v32_apply, val_main_v31_apply, val_main_v30_apply, i33, i31, v29_apply, v2_apply,
    Ideal.hostDivf_def, Ideal.mulf_def, Ideal.ofBits_def, Ideal.ofBits_zero_f32, zero_add]
  rfl

theorem v42_apply (b : Fin 8) (h : Fin 768) :
    val_main_v42 (F := Ideal) x0 x1 (ix2 b h) = qavg (RA x0 x1 b) (MA x1 b) h := by
  rw [val_main_v42_apply, val_main_v39_apply, val_main_v41_apply, val_main_v40_apply, val_main_cst_5_apply, i41, v6_apply]
  simp only [val_main_v38_apply, val_main_v37_apply, val_main_v30_apply, i39, i37, v9_apply, v2_apply,
    Ideal.hostDivf_def, Ideal.mulf_def, Ideal.ofBits_def, Ideal.ofBits_zero_f32, zero_add]
  rfl

/-- The two row blocks side by side, read at `(b, k)`: the left block where `k < 768`, the right block at `k - 768` otherwise. -/
private theorem concat_apply (y1 y2 : (⟨S8x768, .f32⟩ : BufTy).Contents (Elt Ideal)) (b : Fin 8) (k : Fin 1536) :
    concatenate S8x1536 1 [⟨S8x768, y1⟩, ⟨S8x768, y2⟩] concatenates_S8x768_S8x768_S8x1536_d1 (ix2 b k)
      = cat (fun h => y1 (ix2 b h)) (fun h => y2 (ix2 b h)) k := by
  unfold cat
  by_cases hk : k.val < 768
  · rw [dif_pos hk]
    exact concatenate_pair_apply_left (1 : Fin S8x1536.rank) _ _ concatenates_S8x768_S8x768_S8x1536_d1 (ix2 b k) rfl
      (ix2 b ⟨k.val, hk⟩) (fun a => by match a with | ⟨0, _⟩ => rfl | ⟨1, _⟩ => rfl)
  · rw [dif_neg hk]
    refine concatenate_pair_apply_right (1 : Fin S8x1536.rank) _ _ concatenates_S8x768_S8x768_S8x1536_d1 (ix2 b k) rfl rfl
      (ix2 b ⟨k.val - 768, by omega⟩) (fun a => ?_) ?_
    · match a with
      | ⟨0, _⟩ => exact fun _ => rfl
      | ⟨1, _⟩ => exact fun hne => absurd rfl hne
    · show k.val - 768 + 768 = k.val
      omega

theorem v43_apply (b : Fin 8) (k : Fin 1536) :
    val_main_v43 (F := Ideal) x0 x1 x2 (ix2 b k)
      = cat (qavg (RA x0 x1 b) (MA x1 b)) (qbd (RA x0 x1 b) (MA x1 b) (RB x0 x2 b) (MB x2 b)) k := by
  unfold val_main_v43
  rw [concat_apply]
  exact congrArg₂ (fun u v => cat u v k) (funext fun h => v42_apply x0 x1 b h) (funext fun h => v36_apply x0 x1 x2 b h)

/-! ## The two dense layers -/

private theorem il44 (b : Fin 8) (j : Fin 768) (k : Fin 1536) : lidx_main_v44 (ix2 b j) k = ix2 b k :=
  funext fun a => by match a with | ⟨0, _⟩ => rfl | ⟨1, _⟩ => rfl

private theorem ir44 (b : Fin 8) (j : Fin 768) (k : Fin 1536) : ridx_main_v44 (ix2 b j) k = ix2 k j :=
  funext fun a => by match a with | ⟨0, _⟩ => rfl | ⟨1, _⟩ => rfl

private theorem i46 (b : Fin 8) (j : Fin 768) : idx_main_v45 (idx_main_v46 (ix2 b j)) = ix1 j :=
  funext fun a => by match a with | ⟨0, _⟩ => rfl

private theorem il49 (b : Fin 8) (c : Fin 2) (j : Fin 768) : lidx_main_v49 (ix2 b c) j = ix2 b j :=
  funext fun a => by match a with | ⟨0, _⟩ => rfl | ⟨1, _⟩ => rfl

private theorem ir49 (b : Fin 8) (c : Fin 2) (j : Fin 768) : ridx_main_v49 (ix2 b c) j = ix2 j c :=
  funext fun a => by match a with | ⟨0, _⟩ => rfl | ⟨1, _⟩ => rfl

private theorem i51 (b : Fin 8) (c : Fin 2) : idx_main_v50 (idx_main_v51 (ix2 b c)) = ix1 c :=
  funext fun a => by match a with | ⟨0, _⟩ => rfl

/-- The hidden layer at `(b, j)`: the affine image of the two averages side by side, then the ramp. -/
theorem v48_apply (b : Fin 8) (j : Fin 768) :
    val_main_v48 (F := Ideal) x0 x1 x2 x3 x4 (ix2 b j)
      = hid (qavg (RA x0 x1 b) (MA x1 b)) (qbd (RA x0 x1 b) (MA x1 b) (RB x0 x2 b) (MB x2 b))
          (fun (k : Fin 1536) (j : Fin 768) => x3 (ix2 k j)) (fun j : Fin 768 => x4 (ix1 j)) j := by
  rw [val_main_v48_apply, val_main_v47_apply, val_main_v44_apply, val_main_v46_apply, val_main_v45_apply,
    val_main_call4_v0_apply, val_main_call4_cst_apply, i46]
  simp only [il44, ir44, v43_apply, Ideal.maximumf_def, Ideal.addf_def, Ideal.ofBits_def, Ideal.ofBits_zero_f32]
  rfl

/-- The reference's result at `(b, c)` is the specification's logit `c` of batch `b`'s rows and masks. -/
theorem ref_apply (b : Fin 8) (c : Fin 2) :
    val_main_v52 (F := Ideal) x0 x1 x2 x3 x4 x5 x6 (ix2 b c)
      = logit (RA x0 x1 b) (MA x1 b) (RB x0 x2 b) (MB x2 b)
          (fun (k : Fin 1536) (j : Fin 768) => x3 (ix2 k j)) (fun j : Fin 768 => x4 (ix1 j))
          (fun (j : Fin 768) (c : Fin 2) => x5 (ix2 j c)) (fun c : Fin 2 => x6 (ix1 c)) c := by
  rw [val_main_v52_apply, val_main_v49_apply, val_main_v51_apply, val_main_v50_apply, i51]
  simp only [il49, ir49, v48_apply, Ideal.addf_def]
  rfl

end Cert.RefValue

end
-- ==== Proof.lean ====
/-
  A sequence-pair pooling head: for each of 8 batches, query and document token rows are gathered from a
  `[512, 768]` token table by two index rows, scaled to unit length (norms clamped below), compared by inner products,
  the document rows averaged per query token with the masked similarities as weights, both sides averaged over the
  unmasked query tokens, and the two averages passed through two dense layers with a ramp between. A token is unmasked
  when its index is positive.

  The kernel gathers a row by multiplying the table with the 0/1 matrix `[index word = position]`, so an index that
  is not one of the positions `0 … 511` yields the ZERO row; the reference's take-along-axis counts a negative index
  from the end and yields the not-a-number row — `⊥` on the extended reals — when even that is out of range. On the
  extended reals `x * 0 = 0` for every `x`, so a masked row never matters, which settles every index that is not
  positive. A positive document index from 512 up is settled too: the `⊥` row and the zero row both scale to the zero
  row (`⊥ / ⊤ = 0`, `0 / eps = 0`), their similarities vanish, and `0 * ⊥ = 0 * 0`. A positive QUERY index from 512 up
  is where the two programs part (the reference averages a `⊥` row in, the kernel a zero row), and the precondition's
  conjunct `text_a_indices < 512` excludes exactly that.

  The kernel's value is read off its frame run: each grid point writes its batch's two logits, the eight blocks cover
  the output array, and the host line after the region drops a unit axis (Proof/KerRun.lean over Proof/KerValue.lean
  and the three readings of the body, Proof/KerRows.lean, Proof/KerPqd.lean, Proof/KerHead.lean). The reference's value
  is its run read one operation at a time (Proof/RefRows.lean, Proof/RefSim.lean, Proof/RefHead.lean). Both are the one
  function of Proof/PoolSpec.lean, at the two ways of gathering, which Proof/PoolRows.lean joins.
-/
import proofs.«402888_j21912923144748_1_alg».proof.Defs
import proofs.«402888_j21912923144748_1_alg».proof.Proof.Gen.Kernel
import proofs.«402888_j21912923144748_1_alg».proof.Proof.Gen.Kernel.Skeleton
import proofs.«402888_j21912923144748_1_alg».proof.Proof.Gen.Kernel.Launch
import proofs.«402888_j21912923144748_1_alg».proof.Proof.Gen.Kernel.Points
import proofs.«402888_j21912923144748_1_alg».proof.Proof.Gen.Kernel.Frame
import proofs.«402888_j21912923144748_1_alg».proof.Proof.Gen.KernelIdeal
import proofs.«402888_j21912923144748_1_alg».proof.Proof.Gen.KernelIdeal.Skeleton
import proofs.«402888_j21912923144748_1_alg».proof.Proof.Gen.KernelIdeal.Launch
import proofs.«402888_j21912923144748_1_alg».proof.Proof.Gen.KernelIdeal.Points
import proofs.«402888_j21912923144748_1_alg».proof.Proof.Gen.KernelIdeal.Frame
import proofs.«402888_j21912923144748_1_alg».proof.Proof.Gen.ReferenceIdeal
import proofs.«402888_j21912923144748_1_alg».proof.Proof.Gen.Pre_finite_inputs
import Idealize.ShloMosaic.Adequacy
import Idealize.ShloMosaic.Init
import proofs.«402888_j21912923144748_1_alg».proof.Proof.PoolRows
import proofs.«402888_j21912923144748_1_alg».proof.Proof.PreDecode
import proofs.«402888_j21912923144748_1_alg».proof.Proof.KerRun
import proofs.«402888_j21912923144748_1_alg».proof.Proof.RefHead

noncomputable section

namespace Cert.Proof

open Idealize.ShloMosaic Idealize.ShloMosaic.TcCoe Idealize.ShloMosaic.ValueIdx Idealize.SL.Sem Cert.PoolSpec

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's logits of the argument arrays: the kernel's rows gathered by comparing
    index words with positions, the reference's by the normalised take; with every query index below 512 the two
    gatherings give the same logits. -/
theorem algebraic : Cert.algebraic_KernelIdeal_ReferenceIdeal := by
  intro m ρ m' ρ' hpre hagree
  refine ⟨fun c => Cert.KernelIdeal.KerRun.KV m c, Cert.KernelIdeal.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨e0, e1, e2, e3, e4, e5, e6⟩ := hagree c
  rw [e0, e1, e2, e3, e4, e5, e6]
  funext i
  obtain ⟨b, c', rfl⟩ : ∃ (b : Fin 8) (c' : Fin 2), i = ix2 b c' := ⟨i 0, i 1, eq_ix2 i⟩
  rw [Cert.RefValue.ref_apply]
  have ha : ∀ q : Fin 64,
      ((m ((c.tc : Thread Cert.KernelIdeal.nD Cert.KernelIdeal.τ).loc Cert.KernelIdeal.main_arg1) : Cert.KernelIdeal.S8x64.Idx → BitVec 32) (ix2 b q)).toInt < 512 :=
    fun q => Cert.PreDecode.idx_lt _ _ _ _ _ _ _ (hpre c) (ix2 b q)
  exact logit_rowR_eq_rowK _ _ _ ha _ _ _ _ c'

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
